-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x192 : Shape := ⟨2, ![50000, 192]⟩
abbrev S2x800000 : Shape := ⟨2, ![2, 800000]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S_ : Shape := ⟨0, ![]⟩

class Facts : Prop where
  bcast_S_S50000x192 : S_.BroadcastsInDim S50000x192 (![] : Fin 0 → Fin S50000x192.rank)
  reducesTo_S50000x192_S_d0_1 : S50000x192.ReducesTo [0, 1] S_
  h_S_ : 0 < S_.numel
  bcast_S_S800000 : S_.BroadcastsInDim S800000 (![] : Fin 0 → Fin S800000.rank)
  reducesTo_S800000_S_d0 : S800000.ReducesTo [0] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg1 : IVec S2x800000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 4294917296#32
  let main_v29 : IVec S2x800000 32 := broadcastInDim S2x800000 ![] bcast_S_S2x800000 main_c_10
  let main_v30 : IVec S2x800000 1 := cmpi .sge main_arg1 main_v29
  let main_c_11 : IVec S_ 32 := constantI S_ 32 50000#32
  let main_v31 : IVec S2x800000 32 := broadcastInDim S2x800000 ![] bcast_S_S2x800000 main_c_11
  let main_v32 : IVec S2x800000 1 := cmpi .slt main_arg1 main_v31
  let main_v33 : IVec S2x800000 1 := andi main_v30 main_v32
  fn_part2 (F := F) main_v28 main_v33

def fn {F : FTy → Type} [FloatOps F] (main_arg0 : FVec F S50000x192 .f32) (main_arg1 : IVec S2x800000 32) (main_arg2 : FVec F S800000 .f32) (main_arg3 : FVec F S257x128 .f32) (main_arg4 : FVec F S128 .f32) (main_arg5 : FVec F S128x128 .f32) (main_arg6 : FVec F S128 .f32) : IVec S_ 1 :=
  let main_v0 : FVec F S50000x192 .f32 := Host.absf main_arg0
  let main_cst : FVec F S_ .f32 := constant S_ .f32 0x7F800000#32
  let main_v1 : FVec F S50000x192 .f32 := broadcastInDim S50000x192 ![] bcast_S_S50000x192 main_cst
  let main_v2 : IVec S50000x192 1 := cmpf .olt main_v0 main_v1
  let main_c : IVec S_ 1 := constantI S_ 1 1#1
  let main_v3 : IVec S_ 1 := (fun x v => Host.reduce IntOp.andi x v reducesTo_S50000x192_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x192 : Shape := ⟨2, ![50000, 192]⟩
abbrev S2x800000 : Shape := ⟨2, ![2, 800000]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S50000x128 : Shape := ⟨2, ![50000, 128]⟩
abbrev S50000x64 : Shape := ⟨2, ![50000, 64]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S802816x128 : Shape := ⟨2, ![802816, 128]⟩
abbrev S8192x128 : Shape := ⟨2, ![8192, 128]⟩

abbrev nBuf : Space → Nat
  | .hbm => 93
  | .vmem => 13
  | .smem => 0
  | _ => 0

abbrev bufTy : (tb : Table) → Fin (tcTables nBuf tb) → BufTy
  | .hbm, ⟨0, _⟩ => ⟨S50000x192, .f32⟩
  | .hbm, ⟨1, _⟩ => ⟨S2x800000, .i32⟩
  | .hbm, ⟨2, _⟩ => ⟨S800000, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000x128, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x128, .f32⟩
  | .hbm, ⟨55, _⟩ => ⟨S800000x128, .i1⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S800000x1, .f32⟩
  | .hbm, ⟨64, _⟩ => ⟨S1x128, .f32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S_, .i32⟩
  | .hbm, ⟨69, _⟩ => ⟨S_, .f32⟩
  | .hbm, ⟨70, _⟩ => ⟨S802816x128, .f32⟩
  | .hbm, ⟨71, _⟩ => ⟨S802816x128, .bf16⟩
  | .hbm, ⟨72, _⟩ => ⟨S_, .i32⟩
  | .hbm, ⟨73, _⟩ => ⟨S_, .f32⟩
  | .hbm, ⟨74, _⟩ => ⟨S802816x128, .f32⟩
  | .hbm, ⟨75, _⟩ => ⟨S802816x128, .bf16⟩
  | .hbm, ⟨76, _⟩ => ⟨S_, .i32⟩
  | .hbm, ⟨77, _⟩ => ⟨S_, .f32⟩
  | .hbm, ⟨78, _⟩ => ⟨S802816x128, .f32⟩
  | .hbm, ⟨79, _⟩ => ⟨S802816x128, .bf16⟩
  | .hbm, ⟨80, _⟩ => ⟨S128x128, .bf16⟩
  | .hbm, ⟨81, _⟩ => ⟨S128x128, .bf16⟩
  | .hbm, ⟨82, _⟩ => ⟨S128x128, .bf16⟩
  | .hbm, ⟨83, _⟩ => ⟨S1x128, .f32⟩
  | .hbm, ⟨84, _⟩ => ⟨S1x128, .f32⟩
  | .hbm, ⟨85, _⟩ => ⟨S802816x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .f32⟩
  | .hbm, ⟨92, _⟩ => ⟨S50000x192, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S8192x128, .f32⟩
  | .local _ .vmem, ⟨12, _⟩ => ⟨S8192x128, .f32⟩
  | _, _ => ⟨S50000x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_c : Ref sig .tc := ⟨.hbm, 68, rfl⟩
abbrev main_call2_v0 : Ref sig .tc := ⟨.hbm, 69, rfl⟩
abbrev main_v17 : Ref sig .tc := ⟨.hbm, 70, rfl⟩
abbrev main_v18 : Ref sig .tc := ⟨.hbm, 71, rfl⟩
abbrev main_c_0 : Ref sig .tc := ⟨.hbm, 72, rfl⟩
abbrev main_call3_v0 : Ref sig .tc := ⟨.hbm, 73, rfl⟩
abbrev main_v19 : Ref sig .tc := ⟨.hbm, 74, rfl⟩
abbrev main_v20 : Ref sig .tc := ⟨.hbm, 75, rfl⟩
abbrev main_c_1 : Ref sig .tc := ⟨.hbm, 76, rfl⟩
abbrev main_call4_v0 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_cst : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S50000x192_S50000x128_0_0 : S50000x192.Slices ![0, 0] S50000x128
  slices_S50000x192_S50000x64_0_128 : S50000x192.Slices ![0, 128] S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S1x128_S128 : S1x128.ShapeCasts S128
  bcast_S128_S1x128_1 : S128.BroadcastsInDim S1x128 (![1] : Fin 1 → Fin S1x128.rank)
  bcast_S800000x1_S800000x128_0_1 : S800000x1.BroadcastsInDim S800000x128 (![0, 1] : Fin 2 → Fin S800000x128.rank)
  bcast_S1x128_S800000x128_0_1 : S1x128.BroadcastsInDim S800000x128 (![0, 1] : Fin 2 → Fin S800000x128.rank)
  pads_S800000x128_S802816x128_028160_000 : S800000x128.Pads (![0, 0] : Fin 2 → Nat) ![2816, 0] ![0, 0] S802816x128
  bitsLt_bf16_f32 : FTy.bits .bf16 < FTy.bits .f32
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S802816x128_S800000x128_0_0 : S802816x128.Slices ![0, 0] S800000x128
  bcast_S_S50000x128 : S_.BroadcastsInDim S50000x128 (![] : Fin 0 → Fin S50000x128.rank)
  concatenates_S50000x128_S50000x64_S50000x192_d1 : Shape.Concatenates [S50000x128, S50000x64] S50000x192 1
  gather_S50000x128_S800000x1_S800000x128_1_0_n_n_0_1_1128_wf : GatherDims.WF S50000x128 S800000x1 S800000x128 [1] [0] [] [0] [] 1 ![1, 128]
  dot_S8192x128_S128x128_S8192x128_1_0_0_1_n_n_wf : DotDims.WF S8192x128 S128x128 S8192x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S802816x128.size a
  hwx0_0 : ∀ i : grid0.Coords, EltTy.bits .bf16 = 32 ∨ (Rect.block (s := S802816x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S802816x128.size a
  hwx0_1 : ∀ i : grid0.Coords, EltTy.bits .bf16 = 32 ∨ (Rect.block (s := S802816x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S802816x128.size a
  hwx0_2 : ∀ i : grid0.Coords, EltTy.bits .bf16 = 32 ∨ (Rect.block (s := S802816x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x128.size a ≤ S802816x128.size a
  hwx0_8 : ∀ i : grid0.Coords, EltTy.bits .f32 = 32 ∨ (Rect.block (s := S802816x128) S8192x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v18) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S8192x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x192 : Shape := ⟨2, ![50000, 192]⟩
abbrev S2x800000 : Shape := ⟨2, ![2, 800000]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S50000x128 : Shape := ⟨2, ![50000, 128]⟩
abbrev S50000x64 : Shape := ⟨2, ![50000, 64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x257 : Shape := ⟨2, ![800000, 257]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x192, .f32⟩
  | .hbm, ⟨1, _⟩ => ⟨S2x800000, .i32⟩
  | .hbm, ⟨2, _⟩ => ⟨S800000, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000x128, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x1, .f32⟩
  | .hbm, ⟨32, _⟩ => ⟨S800000x257, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x192, .f32⟩
  | _, _ => ⟨S50000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  slices_S50000x192_S50000x128_0_0 : S50000x192.Slices ![0, 0] S50000x128
  slices_S50000x192_S50000x64_0_128 : S50000x192.Slices ![0, 128] S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x64_S50000x192_d1 : Shape.Concatenates [S50000x128, S50000x64] S50000x192 1
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.RowNet.lean ====
/-
  The message network, row by row, on extended reals.

  Every edge e has a row of 128 sender features, a row of 128 receiver features and a row lt of 128 numbers (the edge's
  length times the last row of the first weight matrix). The first layer is
      pre(e, k) = (Σ_q sf(e, q)·w1s(q, k) + Σ_q rf(e, q)·w1r(q, k)) + lt(e, k) + b1(k),
  the activation is x ↦ x · (1 / (1 + exp(-x))), and the second layer is
      out(e, j) = Σ_k act(pre(e, k))·w2(k, j) + b2(j).
  Row e of the result reads row e of sf, rf and lt only. So the network of a block of rows is that block of rows of
  the network of the whole array, and rows added at the end of the arrays change nothing in the rows before them.

  The other way to write the first layer lays the three pieces of a row side by side, 257 numbers, and multiplies by the
  whole 257 × 128 weight matrix. It is the same number: a sum over 257 positions is the sum over the first 128, plus the
  sum over the next 128, plus the last term, and that uses only that addition is commutative and associative.
-/
import Idealize.ShloMosaic.PureOps.Ideal.Laws
import Idealize.ShloMosaic.Lib.ValueIdx
import Mathlib.Algebra.BigOperators.Fin

noncomputable section

open scoped BigOperators

namespace EdgeMsg

open Idealize.ShloMosaic Idealize.ShloMosaic.ValueIdx

/-! ## A sum over 257 positions: 128, 128 more, and one last -/

/-- Position q of the first band, position 128 + q of the second, and the last position 256, among 257. -/
def band0 (q : Fin 128) : Fin 257 := ⟨q.val, by omega⟩
def band1 (q : Fin 128) : Fin 257 := ⟨128 + q.val, by omega⟩
def lastPos : Fin 257 := ⟨256, by omega⟩

/-- Addition being commutative and associative, the sum over all 257 positions is the sum over the first band, plus
    the sum over the second band, plus the last term. Nothing here asks the summands to be finite. -/
theorem sum_257 {A : Type} [AddCommMonoid A] (f : Fin 257 → A) :
    ∑ q : Fin 257, f q = ((∑ q : Fin 128, f (band0 q)) + ∑ q : Fin 128, f (band1 q)) + f lastPos := by
  have h1 : ∑ q : Fin 257, f q = (∑ q : Fin 256, f (Fin.castSucc q)) + f (Fin.last 256) :=
    Fin.sum_univ_castSucc f
  have h2 : ∑ q : Fin 256, f (Fin.castSucc q)
      = (∑ q : Fin 128, f (Fin.castSucc (Fin.castAdd 128 q))) + ∑ q : Fin 128, f (Fin.castSucc (Fin.natAdd 128 q)) :=
    Fin.sum_univ_add (fun q : Fin (128 + 128) => f (Fin.castSucc q))
  rw [h1, h2]
  rfl

/-! ## The network -/

/-- x · (1 / (1 + exp(-x))). -/
def act (x : EReal) : EReal := x * Ideal.logistic x

theorem act_eq (x : EReal) : act x = x * Ideal.div 1 (1 + Ideal.exp (-x)) := rfl

section Net

variable {M : ℕ}

/-- The first layer before the activation, at row r and hidden unit k. -/
def pre (sf rf lt : (⟨2, ![M, 128]⟩ : Shape).Idx → EReal) (w1s w1r : (⟨2, ![128, 128]⟩ : Shape).Idx → EReal)
    (b1 : (⟨2, ![1, 128]⟩ : Shape).Idx → EReal) (r : Fin M) (k : Fin 128) : EReal :=
  (((∑ q : Fin 128, sf (ix2 r q) * w1s (ix2 q k)) + ∑ q : Fin 128, rf (ix2 r q) * w1r (ix2 q k)) + lt (ix2 r k))
    + b1 (ix2 (0 : Fin 1) k)

/-- The network's result at row r and output unit j. -/
def out (sf rf lt : (⟨2, ![M, 128]⟩ : Shape).Idx → EReal) (w1s w1r w2 : (⟨2, ![128, 128]⟩ : Shape).Idx → EReal)
    (b1 b2 : (⟨2, ![1, 128]⟩ : Shape).Idx → EReal) (r : Fin M) (j : Fin 128) : EReal :=
  (∑ k : Fin 128, act (pre sf rf lt w1s w1r b1 r k) * w2 (ix2 k j)) + b2 (ix2 (0 : Fin 1) j)

/-- The network's result as an array of M rows. -/
def rowNet (sf rf lt : (⟨2, ![M, 128]⟩ : Shape).Idx → EReal) (w1s w1r w2 : (⟨2, ![128, 128]⟩ : Shape).Idx → EReal)
    (b1 b2 : (⟨2, ![1, 128]⟩ : Shape).Idx → EReal) : (⟨2, ![M, 128]⟩ : Shape).Idx → EReal := fun i =>
  out sf rf lt w1s w1r w2 b1 b2 ⟨(i 0).val, idx2_lt0 i⟩ ⟨(i 1).val, idx2_lt1 i⟩

theorem rowNet_ix2 (sf rf lt : (⟨2, ![M, 128]⟩ : Shape).Idx → EReal) (w1s w1r w2 : (⟨2, ![128, 128]⟩ : Shape).Idx → EReal)
    (b1 b2 : (⟨2, ![1, 128]⟩ : Shape).Idx → EReal) (r : Fin M) (j : Fin 128) :
    rowNet sf rf lt w1s w1r w2 b1 b2 (ix2 r j) = out sf rf lt w1s w1r w2 b1 b2 r j := rfl

end Net

/-- Row r of one set of arrays and row r' of another hold the same numbers: then the network's results in those two
    rows are the same. -/
theorem out_congr {M M' : ℕ} {sf rf lt : (⟨2, ![M, 128]⟩ : Shape).Idx → EReal}
    {sf' rf' lt' : (⟨2, ![M', 128]⟩ : Shape).Idx → EReal} (w1s w1r w2 : (⟨2, ![128, 128]⟩ : Shape).Idx → EReal)
    (b1 b2 : (⟨2, ![1, 128]⟩ : Shape).Idx → EReal) {r : Fin M} {r' : Fin M'}
    (hsf : ∀ q : Fin 128, sf (ix2 r q) = sf' (ix2 r' q)) (hrf : ∀ q : Fin 128, rf (ix2 r q) = rf' (ix2 r' q))
    (hlt : ∀ k : Fin 128, lt (ix2 r k) = lt' (ix2 r' k)) (j : Fin 128) :
    out sf rf lt w1s w1r w2 b1 b2 r j = out sf' rf' lt' w1s w1r w2 b1 b2 r' j := by
  unfold out pre
  simp only [hsf, hrf, hlt]

/-! ## The unpadded edges, from the gathered rows and the parameters as given -/

/-- The messages of the 800000 edges: SG and RG are the gathered sender and receiver rows, el the edge lengths, W1 the
    257 × 128 first weight matrix (rows 0 … 127 meet the sender's features, rows 128 … 255 the receiver's, row 256 the
    length), b1, W2, b2 the rest of the parameters. -/
def msg (SG RG : (⟨2, ![800000, 128]⟩ : Shape).Idx → EReal) (el : (⟨1, ![800000]⟩ : Shape).Idx → EReal)
    (W1 : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![800000, 128]⟩ : Shape).Idx → EReal :=
  rowNet SG RG
    (fun i => el (ix1 (⟨(i 0).val, idx2_lt0 i⟩ : Fin 800000)) * W1 (ix2 lastPos (⟨(i 1).val, idx2_lt1 i⟩ : Fin 128)))
    (fun i => W1 (ix2 (band0 ⟨(i 0).val, idx2_lt0 i⟩) (⟨(i 1).val, idx2_lt1 i⟩ : Fin 128)))
    (fun i => W1 (ix2 (band1 ⟨(i 0).val, idx2_lt0 i⟩) (⟨(i 1).val, idx2_lt1 i⟩ : Fin 128)))
    W2
    (fun i => b1 (ix1 (⟨(i 1).val, idx2_lt1 i⟩ : Fin 128)))
    (fun i => b2 (ix1 (⟨(i 1).val, idx2_lt1 i⟩ : Fin 128)))

/-- The side-by-side form: with cat the 800000 × 257 array whose row e is SG's row e, then RG's row e, then el(e), the
    first layer through the whole weight matrix, the activation spelt out, and the second layer give msg. -/
theorem msg_of_cat (SG RG : (⟨2, ![800000, 128]⟩ : Shape).Idx → EReal) (el : (⟨1, ![800000]⟩ : Shape).Idx → EReal)
    (W1 : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (cat : (⟨2, ![800000, 257]⟩ : Shape).Idx → EReal)
    (h0 : ∀ (e : Fin 800000) (q : Fin 128), cat (ix2 e (band0 q)) = SG (ix2 e q))
    (h1 : ∀ (e : Fin 800000) (q : Fin 128), cat (ix2 e (band1 q)) = RG (ix2 e q))
    (h2 : ∀ e : Fin 800000, cat (ix2 e lastPos) = el (ix1 e))
    (e : Fin 800000) (j : Fin 128) :
    (∑ k : Fin 128,
        (((∑ q : Fin 257, cat (ix2 e q) * W1 (ix2 q k)) + b1 (ix1 k))
          * Ideal.div 1 (1 + Ideal.exp (-((∑ q : Fin 257, cat (ix2 e q) * W1 (ix2 q k)) + b1 (ix1 k))))) * W2 (ix2 k j))
      + b2 (ix1 j)
      = msg SG RG el W1 b1 W2 b2 (ix2 e j) := by
  have hpre : ∀ k : Fin 128, (∑ q : Fin 257, cat (ix2 e q) * W1 (ix2 q k)) + b1 (ix1 k)
      = pre SG RG
          (fun i => el (ix1 (⟨(i 0).val, idx2_lt0 i⟩ : Fin 800000)) * W1 (ix2 lastPos (⟨(i 1).val, idx2_lt1 i⟩ : Fin 128)))
          (fun i => W1 (ix2 (band0 ⟨(i 0).val, idx2_lt0 i⟩) (⟨(i 1).val, idx2_lt1 i⟩ : Fin 128)))
          (fun i => W1 (ix2 (band1 ⟨(i 0).val, idx2_lt0 i⟩) (⟨(i 1).val, idx2_lt1 i⟩ : Fin 128)))
          (fun i => b1 (ix1 (⟨(i 1).val, idx2_lt1 i⟩ : Fin 128))) e k := by
    intro k
    rw [sum_257 (fun q : Fin 257 => cat (ix2 e q) * W1 (ix2 q k))]
    simp only [h0, h1, h2]
    rfl
  unfold msg
  rw [rowNet_ix2]
  unfold out
  simp only [hpre]
  rfl

end EdgeMsg
-- ==== Proof.Payload.lean ====
/-
  The body of the kernel on one block of 8192 rows, read at row r and column j, is the two-layer network of
  that row.

  The body is a chain of array operations: three matrix products into a zero accumulator, sums, a row of 128
  numbers repeated down the rows (twice), the logistic function, a product, and changes of float format that do
  nothing to an extended real. Each of them, read at (r, j), is the matching operation on the numbers at (r, j), and a
  matrix product read at (r, j) is the sum over the contracted coordinate k of A(r, k) · B(k, j). Put together these
  are, term by term, the network's formula.
-/
import proofs.«425673_j35691178230141_1_alg».proof.Proof.Gen.KernelIdeal.Skeleton
import proofs.«425673_j35691178230141_1_alg».proof.Proof.RowNet
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Bridge

open Idealize.ShloMosaic Idealize.ShloMosaic.ValueIdx Cert.KernelIdeal Cert.KernelIdeal.Gen

/-! ## The product of an 8192 × 128 matrix and a 128 × 128 matrix at an index

The product contracts the left operand's axis 1 with the right operand's axis 0. At the result's index i and the
contraction's index q, the left operand is read at (i 0, q) and the right operand at (q, i 1). -/

/-- The left operand's row is the result's row. -/
theorem lhs_axis0 (i : S8192x128.Idx) (q : Cert.KernelIdeal.dot_S8192x128_S128x128_S8192x128_1_0_0_1_n_n.contr.Idx) :
    (Cert.KernelIdeal.dot_S8192x128_S128x128_S8192x128_1_0_0_1_n_n.lhsIdx i q 0).val = (i 0).val := by
  unfold DotDims.lhsIdx
  rw [dif_neg (show ¬(0 : Fin S8192x128.rank) ∈ Cert.KernelIdeal.dot_S8192x128_S128x128_S8192x128_1_0_0_1_n_n.lhsBatch by decide), dif_pos (show (0 : Fin S8192x128.rank) ∈ Cert.KernelIdeal.dot_S8192x128_S128x128_S8192x128_1_0_0_1_n_n.lhsNonContracting by decide)]
  rfl

/-- The left operand's column is the contracted coordinate. -/
theorem lhs_axis1 (i : S8192x128.Idx) (q : Cert.KernelIdeal.dot_S8192x128_S128x128_S8192x128_1_0_0_1_n_n.contr.Idx) :
    (Cert.KernelIdeal.dot_S8192x128_S128x128_S8192x128_1_0_0_1_n_n.lhsIdx i q 1).val = (q ⟨0, by decide⟩).val :=
  Cert.KernelIdeal.dot_S8192x128_S128x128_S8192x128_1_0_0_1_n_n.lhsIdx_val_of_single rfl i q

/-- The right operand's row is the contracted coordinate. -/
theorem rhs_axis0 (i : S8192x128.Idx) (q : Cert.KernelIdeal.dot_S8192x128_S128x128_S8192x128_1_0_0_1_n_n.contr.Idx) :
    (Cert.KernelIdeal.dot_S8192x128_S128x128_S8192x128_1_0_0_1_n_n.rhsIdx i q 0).val = (q ⟨0, by decide⟩).val :=
  Cert.KernelIdeal.dot_S8192x128_S128x128_S8192x128_1_0_0_1_n_n.rhsIdx_val_of_single rfl i q

/-- The right operand's column is the result's column. -/
theorem rhs_axis1 (i : S8192x128.Idx) (q : Cert.KernelIdeal.dot_S8192x128_S128x128_S8192x128_1_0_0_1_n_n.contr.Idx) :
    (Cert.KernelIdeal.dot_S8192x128_S128x128_S8192x128_1_0_0_1_n_n.rhsIdx i q 1).val = (i 1).val := by
  unfold DotDims.rhsIdx
  rw [dif_neg (show ¬(1 : Fin S128x128.rank) ∈ Cert.KernelIdeal.dot_S8192x128_S128x128_S8192x128_1_0_0_1_n_n.rhsBatch by decide), dif_pos (show (1 : Fin S128x128.rank) ∈ Cert.KernelIdeal.dot_S8192x128_S128x128_S8192x128_1_0_0_1_n_n.rhsNonContracting by decide)]
  rfl

/-- The product into the zero accumulator, at (r, j): the sum over k of A(r, k) · B(k, j). -/
theorem product_apply {φ₁ φ₂ : FTy} (A : FVec Ideal S8192x128 φ₁) (B : FVec Ideal S128x128 φ₂) (r : Fin 8192) (j : Fin 128) :
    matmul Cert.KernelIdeal.dot_S8192x128_S128x128_S8192x128_1_0_0_1_n_n none A B (constant (F := Ideal) S8192x128 .f32 0x00000000#32) (ix2 r j)
      = ∑ k : Fin 128, A (ix2 r k) * B (ix2 k j) := by
  refine (Ideal.matmul_constant_zero_apply Cert.KernelIdeal.dot_S8192x128_S128x128_S8192x128_1_0_0_1_n_n none A B (ix2 r j)).trans ?_
  rw [← Equiv.sum_comp (ValueIdx.contrEquiv1 Cert.KernelIdeal.dot_S8192x128_S128x128_S8192x128_1_0_0_1_n_n 128 rfl rfl).symm]
  refine Finset.sum_congr rfl fun k _ => ?_
  have hk := ValueIdx.contrEquiv1_symm_val Cert.KernelIdeal.dot_S8192x128_S128x128_S8192x128_1_0_0_1_n_n 128 rfl rfl k
  have el : Cert.KernelIdeal.dot_S8192x128_S128x128_S8192x128_1_0_0_1_n_n.lhsIdx (ix2 r j) ((ValueIdx.contrEquiv1 Cert.KernelIdeal.dot_S8192x128_S128x128_S8192x128_1_0_0_1_n_n 128 rfl rfl).symm k) = ix2 r k := funext fun a => Fin.ext (by
    match a with
    | ⟨0, _⟩ => exact lhs_axis0 _ _
    | ⟨1, _⟩ => exact (lhs_axis1 _ _).trans hk)
  have er : Cert.KernelIdeal.dot_S8192x128_S128x128_S8192x128_1_0_0_1_n_n.rhsIdx (ix2 r j) ((ValueIdx.contrEquiv1 Cert.KernelIdeal.dot_S8192x128_S128x128_S8192x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## The first layer at an index -/

/-- The two products, the third operand widened, and the bias row repeated down the rows, summed: at (r, k) this is the
    network's first layer before the activation. -/
theorem hidden_apply (sf rf lt : FVec Ideal S8192x128 .bf16) (w1s w1r : FVec Ideal S128x128 .bf16)
    (b1 : FVec Ideal S1x128 .f32) (r : Fin 8192) (k : Fin 128) :
    addf (addf (addf
        (matmul Cert.KernelIdeal.dot_S8192x128_S128x128_S8192x128_1_0_0_1_n_n none sf w1s (constant (F := Ideal) S8192x128 .f32 0x00000000#32))
        (matmul Cert.KernelIdeal.dot_S8192x128_S128x128_S8192x128_1_0_0_1_n_n none rf w1r (constant (F := Ideal) S8192x128 .f32 0x00000000#32)))
        (extf .f32 lt bitsLt_bf16_f32))
      (broadcastTo S8192x128 b1 broadcasts_S1x128_S8192x128) (ix2 r k)
      = EdgeMsg.pre sf rf lt w1s w1r b1 r k := by
  rw [addf_apply, addf_apply, addf_apply, product_apply, product_apply, extf_apply, broadcastTo_1b_ab_apply]
  rfl

/-! ## The whole body at an index -/

/-- The block's result at (r, j) is the network's result in row r at output unit j: a cast of a shape to itself
    changes nothing, the second product is a sum over the hidden units, the narrowing of the activation is the
    identity, and the activation at (r, k) is the first layer's value times its logistic. -/
theorem payload_apply (sf rf lt : Vec Ideal S8192x128 .bf16) (w1s w1r : Vec Ideal S128x128 .bf16)
    (b1 : Vec Ideal S1x128 .f32) (w2 : Vec Ideal S128x128 .bf16) (b2 : Vec Ideal S1x128 .f32) (r : Fin 8192) (j : Fin 128) :
    k0_pay1 (F := Ideal) sf rf lt w1s w1r b1 w2 b2 (ix2 r j) = EdgeMsg.out sf rf lt w1s w1r w2 b1 b2 r j := by
  unfold k0_pay1
  rw [addf_apply, product_apply, broadcastTo_1b_ab_apply]
  unfold EdgeMsg.out
  simp only [shapeCast_self]
  refine congrArg (· + b2 (ix2 (0 : Fin 1) j)) (Finset.sum_congr rfl fun k _ => ?_)
  refine congrArg (· * w2 (ix2 k j)) ?_
  rw [truncf_apply, mulf_apply]
  show _ * Ideal.logistic _ = _
  rw [hidden_apply]
  rfl

end Cert.KernelIdeal.Bridge

end
-- ==== Proof.KernelArray.lean ====
/-
  The padded output array after the region.

  The region runs the body at 98 points. Point t stages rows 8192·t … 8192·t + 8191 of the three row-operands, the whole
  of the three weight matrices and of the two bias rows, and writes back rows 8192·t … 8192·t + 8191 of the result.
  What the body leaves in a block is the network of that block's rows; a row of the network reads only the same row of
  the row-operands; so what point t writes back is rows 8192·t … of the network of the WHOLE arrays. The 98 blocks tile
  the 802816 rows, so after the region the output array is the network of the whole arrays.
-/
import proofs.«425673_j35691178230141_1_alg».proof.Proof.Gen.KernelIdeal.Frame
import proofs.«425673_j35691178230141_1_alg».proof.Proof.Payload
import proofs.«425673_j35691178230141_1_alg».proof.Proof.RowNet
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen EdgeMsg
open Idealize.ShloMosaic.Pipeline (Dat Cfg Window)

variable (m : (ℓ : Loc nD τ sig) → Buf (Elt Ideal) ℓ)

theorem offsets_zero : (![0, 0] : Fin 2 → Nat) = fun _ => 0 := funext fun a => by fin_cases a <;> rfl

/-- The network of the eight staged arrays as the region finds them: 802816 rows. -/
abbrev netArr (c : Dev nD) : S802816x128.Idx → EReal :=
  rowNet (M := 802816) (V m c main_v18) (V m c main_v20) (V m c main_v22) (V m c main_v23) (V m c main_v24)
    (V m c main_v25) (V m c main_v26) (V m c main_v27)

/-- The eight input blocks at a point, each at its literal type. -/
abbrev blkSf (c : Dev nD) (t : Fin cfg0.N) : Vec Ideal S8192x128 .bf16 := iblk m c 0 t
abbrev blkRf (c : Dev nD) (t : Fin cfg0.N) : Vec Ideal S8192x128 .bf16 := iblk m c 1 t
abbrev blkLt (c : Dev nD) (t : Fin cfg0.N) : Vec Ideal S8192x128 .bf16 := iblk m c 2 t
abbrev blkW1s (c : Dev nD) (t : Fin cfg0.N) : Vec Ideal S128x128 .bf16 := iblk m c 3 t
abbrev blkW1r (c : Dev nD) (t : Fin cfg0.N) : Vec Ideal S128x128 .bf16 := iblk m c 4 t
abbrev blkW2 (c : Dev nD) (t : Fin cfg0.N) : Vec Ideal S128x128 .bf16 := iblk m c 5 t
abbrev blkB1 (c : Dev nD) (t : Fin cfg0.N) : Vec Ideal S1x128 .f32 := iblk m c 6 t
abbrev blkB2 (c : Dev nD) (t : Fin cfg0.N) : Vec Ideal S1x128 .f32 := iblk m c 7 t

/-- Where the blocks sit, decided over the 98 points: the three row-operands' blocks and the output's block are block
    t along the rows; the matrices' and the bias rows' blocks are the whole arrays. -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 ∧ t.val < 98 :=
  (by decide +kernel : ∀ t : Fin grid0.N, _)

/-- Every block of 8192 rows is some point's. -/
theorem block_onto : ∀ b : Fin 98, ∃ t : Fin cfg0.N, win0_8.index t = ![b.val, 0] :=
  (by decide +kernel : ∀ b : Fin 98, ∃ t : Fin grid0.N, win0_8.index t = ![b.val, 0])

/-! Each input block, read at an index, is its array read at the matching index: a row-operand's block t holds rows
    8192·t … of its array; a matrix's or a bias row's block is the whole array. -/

/-- Row r of the senders' block t is row 8192·t + r of the senders' array. -/
theorem read_sf (c : Dev nD) (t : Fin cfg0.N) (r : Fin 8192) (q : Fin 128) (hrow : t.val * 8192 + r.val < 802816) :
    blkSf m c t (ix2 r q) = V m c main_v18 (ix2 (⟨t.val * 8192 + r.val, hrow⟩ : Fin 802816) q) := by
  obtain ⟨a0, a1, b0, b1, c0, c1, d0, d1, e0, e1, f0, f1, g0, g1, h0, h1, o0, o1, ht⟩ := block_places t
  have hidx : ((cfg0.win 0).blk t).view.emb (ix2 r q) = ix2 (⟨t.val * 8192 + r.val, hrow⟩ : Fin 802816) q := by
    funext a; apply Fin.ext
    match a with
    | ⟨0, _⟩ => show win0_0.index t (0 : Fin 2) * 8192 + 1 * r.val = t.val * 8192 + r.val; omega
    | ⟨1, _⟩ => show win0_0.index t (1 : Fin 2) * 128 + 1 * q.val = q.val; omega
  show V m c main_v18 (((cfg0.win 0).blk t).view.emb (ix2 r q)) = _
  rw [hidx]

/-- Row r of the receivers' block t is row 8192·t + r of the receivers' array. -/
theorem read_rf (c : Dev nD) (t : Fin cfg0.N) (r : Fin 8192) (q : Fin 128) (hrow : t.val * 8192 + r.val < 802816) :
    blkRf m c t (ix2 r q) = V m c main_v20 (ix2 (⟨t.val * 8192 + r.val, hrow⟩ : Fin 802816) q) := by
  obtain ⟨a0, a1, b0, b1, c0, c1, d0, d1, e0, e1, f0, f1, g0, g1, h0, h1, o0, o1, ht⟩ := block_places t
  have hidx : ((cfg0.win 1).blk t).view.emb (ix2 r q) = ix2 (⟨t.val * 8192 + r.val, hrow⟩ : Fin 802816) q := by
    funext a; apply Fin.ext
    match a with
    | ⟨0, _⟩ => show win0_1.index t (0 : Fin 2) * 8192 + 1 * r.val = t.val * 8192 + r.val; omega
    | ⟨1, _⟩ => show win0_1.index t (1 : Fin 2) * 128 + 1 * q.val = q.val; omega
  show V m c main_v20 (((cfg0.win 1).blk t).view.emb (ix2 r q)) = _
  rw [hidx]

/-- Row r of the length terms' block t is row 8192·t + r of the length terms' array. -/
theorem read_lt (c : Dev nD) (t : Fin cfg0.N) (r : Fin 8192) (q : Fin 128) (hrow : t.val * 8192 + r.val < 802816) :
    blkLt m c t (ix2 r q) = V m c main_v22 (ix2 (⟨t.val * 8192 + r.val, hrow⟩ : Fin 802816) q) := by
  obtain ⟨a0, a1, b0, b1, c0, c1, d0, d1, e0, e1, f0, f1, g0, g1, h0, h1, o0, o1, ht⟩ := block_places t
  have hidx : ((cfg0.win 2).blk t).view.emb (ix2 r q) = ix2 (⟨t.val * 8192 + r.val, hrow⟩ : Fin 802816) q := by
    funext a; apply Fin.ext
    match a with
    | ⟨0, _⟩ => show win0_2.index t (0 : Fin 2) * 8192 + 1 * r.val = t.val * 8192 + r.val; omega
    | ⟨1, _⟩ => show win0_2.index t (1 : Fin 2) * 128 + 1 * q.val = q.val; omega
  show V m c main_v22 (((cfg0.win 2).blk t).view.emb (ix2 r q)) = _
  rw [hidx]

/-- The first weight matrix's sender band is staged whole. -/
theorem read_w1s (c : Dev nD) (t : Fin cfg0.N) (q k : Fin 128) :
    blkW1s m c t (ix2 q k) = V m c main_v23 (ix2 q k) := by
  obtain ⟨a0, a1, b0, b1, c0, c1, d0, d1, e0, e1, f0, f1, g0, g1, h0, h1, o0, o1, ht⟩ := block_places t
  have hidx : ((cfg0.win 3).blk t).view.emb (ix2 q k) = ix2 q k := by
    funext a; apply Fin.ext
    match a with
    | ⟨0, _⟩ => show win0_3.index t (0 : Fin 2) * 128 + 1 * q.val = q.val; omega
    | ⟨1, _⟩ => show win0_3.index t (1 : Fin 2) * 128 + 1 * k.val = k.val; omega
  show V m c main_v23 (((cfg0.win 3).blk t).view.emb (ix2 q k)) = _
  rw [hidx]

/-- The first weight matrix's receiver band is staged whole. -/
theorem read_w1r (c : Dev nD) (t : Fin cfg0.N) (q k : Fin 128) :
    blkW1r m c t (ix2 q k) = V m c main_v24 (ix2 q k) := by
  obtain ⟨a0, a1, b0, b1, c0, c1, d0, d1, e0, e1, f0, f1, g0, g1, h0, h1, o0, o1, ht⟩ := block_places t
  have hidx : ((cfg0.win 4).blk t).view.emb (ix2 q k) = ix2 q k := by
    funext a; apply Fin.ext
    match a with
    | ⟨0, _⟩ => show win0_4.index t (0 : Fin 2) * 128 + 1 * q.val = q.val; omega
    | ⟨1, _⟩ => show win0_4.index t (1 : Fin 2) * 128 + 1 * k.val = k.val; omega
  show V m c main_v24 (((cfg0.win 4).blk t).view.emb (ix2 q k)) = _
  rw [hidx]

/-- The second weight matrix is staged whole. -/
theorem read_w2 (c : Dev nD) (t : Fin cfg0.N) (q k : Fin 128) :
    blkW2 m c t (ix2 q k) = V m c main_v25 (ix2 q k) := by
  obtain ⟨a0, a1, b0, b1, c0, c1, d0, d1, e0, e1, f0, f1, g0, g1, h0, h1, o0, o1, ht⟩ := block_places t
  have hidx : ((cfg0.win 5).blk t).view.emb (ix2 q k) = ix2 q k := by
    funext a; apply Fin.ext
    match a with
    | ⟨0, _⟩ => show win0_5.index t (0 : Fin 2) * 128 + 1 * q.val = q.val; omega
    | ⟨1, _⟩ => show win0_5.index t (1 : Fin 2) * 128 + 1 * k.val = k.val; omega
  show V m c main_v25 (((cfg0.win 5).blk t).view.emb (ix2 q k)) = _
  rw [hidx]

/-- The first bias row is staged whole. -/
theorem read_b1 (c : Dev nD) (t : Fin cfg0.N) (k : Fin 128) :
    blkB1 m c t (ix2 (0 : Fin 1) k) = V m c main_v26 (ix2 (0 : Fin 1) k) := by
  obtain ⟨a0, a1, b0, b1, c0, c1, d0, d1, e0, e1, f0, f1, g0, g1, h0, h1, o0, o1, ht⟩ := block_places t
  have hidx : ((cfg0.win 6).blk t).view.emb (ix2 (0 : Fin 1) k) = ix2 (0 : Fin 1) k := by
    funext a; apply Fin.ext
    match a with
    | ⟨0, _⟩ => show win0_6.index t (0 : Fin 2) * 1 + 1 * (0 : Fin 1).val = (0 : Fin 1).val; omega
    | ⟨1, _⟩ => show win0_6.index t (1 : Fin 2) * 128 + 1 * k.val = k.val; omega
  show V m c main_v26 (((cfg0.win 6).blk t).view.emb (ix2 (0 : Fin 1) k)) = _
  rw [hidx]

/-- The second bias row is staged whole. -/
theorem read_b2 (c : Dev nD) (t : Fin cfg0.N) (k : Fin 128) :
    blkB2 m c t (ix2 (0 : Fin 1) k) = V m c main_v27 (ix2 (0 : Fin 1) k) := by
  obtain ⟨a0, a1, b0, b1, c0, c1, d0, d1, e0, e1, f0, f1, g0, g1, h0, h1, o0, o1, ht⟩ := block_places t
  have hidx : ((cfg0.win 7).blk t).view.emb (ix2 (0 : Fin 1) k) = ix2 (0 : Fin 1) k := by
    funext a; apply Fin.ext
    match a with
    | ⟨0, _⟩ => show win0_7.index t (0 : Fin 2) * 1 + 1 * (0 : Fin 1).val = (0 : Fin 1).val; omega
    | ⟨1, _⟩ => show win0_7.index t (1 : Fin 2) * 128 + 1 * k.val = k.val; omega
  show V m c main_v27 (((cfg0.win 7).blk t).view.emb (ix2 (0 : Fin 1) k)) = _
  rw [hidx]

/-- What point t writes back is block t of the network of the whole arrays. -/
theorem flushed_eq (c : Dev nD) (t : Fin cfg0.N) :
    (dats m 0 c).flushed 8 t = ((cfg0.win 8).blk t).view.read (Elt Ideal) (netArr m c) := by
  show (cfg0.win 8).cut (grid0.coords t) ((dats m 0 c).after 8 t) = _
  rw [after0_8]
  unfold out0_8
  rw [View.canon_unit_zero offsets_zero]
  simp only [View.ld_unit_zero (S := S8192x128) offsets_zero, View.ld_unit_zero (S := S128x128) offsets_zero,
    View.ld_unit_zero (S := S1x128) offsets_zero]
  obtain ⟨a0, a1, b0, b1, c0, c1, d0, d1, e0, e1, f0, f1, g0, g1, h0, h1, o0, o1, ht⟩ := block_places t
  funext y
  obtain ⟨r, j, rfl⟩ : ∃ (r : Fin 8192) (j : Fin 128), y = ix2 r j := ⟨y 0, y 1, eq_ix2 y⟩
  show k0_pay1 (F := Ideal) (blkSf m c t) (blkRf m c t) (blkLt m c t) (blkW1s m c t) (blkW1r m c t) (blkB1 m c t)
      (blkW2 m c t) (blkB2 m c t) (ix2 r j) = netArr m c (((cfg0.win 8).blk t).view.emb (ix2 r j))
  refine (payload_apply (blkSf m c t) (blkRf m c t) (blkLt m c t) (blkW1s m c t) (blkW1r m c t) (blkB1 m c t)
      (blkW2 m c t) (blkB2 m c t) r j).trans ?_
  -- the row of the whole arrays that row r of block t is
  have hrow : t.val * 8192 + r.val < 802816 := by have := r.isLt; omega
  have hemb : ((cfg0.win 8).blk t).view.emb (ix2 r j) = ix2 (⟨t.val * 8192 + r.val, hrow⟩ : Fin 802816) j := by
    funext a; apply Fin.ext
    match a with
    | ⟨0, _⟩ => show win0_8.index t (0 : Fin 2) * 8192 + 1 * r.val = t.val * 8192 + r.val; omega
    | ⟨1, _⟩ => show win0_8.index t (1 : Fin 2) * 128 + 1 * j.val = j.val; omega
  rw [hemb]
  show out (blkSf m c t) (blkRf m c t) (blkLt m c t) (blkW1s m c t) (blkW1r m c t) (blkW2 m c t) (blkB1 m c t) (blkB2 m c t) r j
    = out (V m c main_v18) (V m c main_v20) (V m c main_v22) (V m c main_v23) (V m c main_v24) (V m c main_v25)
        (V m c main_v26) (V m c main_v27) (⟨t.val * 8192 + r.val, hrow⟩ : Fin 802816) j
  unfold out pre
  simp only [read_sf m c t r _ hrow, read_rf m c t r _ hrow, read_lt m c t r _ hrow, read_w1s m c t, read_w1r m c t,
    read_w2 m c t, read_b1 m c t, read_b2 m c t]

/-- An index of the output array is in point t's block iff each coordinate is in the block's range on its axis. -/
theorem mem_block (t : Fin cfg0.N) (i : S802816x128.Idx) :
    i ∈ ((cfg0.win 8).blk t).view.set ↔ ∀ a : Fin 2, win0_8.index t a * S8192x128.size a ≤ (i a).val
      ∧ (i a).val < win0_8.index t a * S8192x128.size a + S8192x128.size a := by
  show i ∈ ((View.whole main_v28).slice (win0_8.rect t)).set ↔ _
  rw [View.set_slice_whole, Rect.mem_set_unit]
  exact Iff.rfl

/-- Every row of the output array is in some point's block: row i is in block i / 8192. -/
theorem covered (i : S802816x128.Idx) :
    ∃ t : Fin cfg0.N, (cfg0.win 8).flush t = true ∧ i ∈ ((cfg0.win 8).blk t).view.set := by
  have hi0 : (i 0).val < 802816 := (i 0).isLt
  have hi1 : (i 1).val < 128 := (i 1).isLt
  obtain ⟨t, ht⟩ := block_onto ⟨(i 0).val / 8192, by omega⟩
  have q0 : win0_8.index t (0 : Fin 2) = (i 0).val / 8192 := congrFun ht 0
  have q1 : win0_8.index t (1 : Fin 2) = 0 := congrFun ht 1
  refine ⟨t, flush0_8 t, ?_⟩
  rw [mem_block]
  intro a
  match a with
  | ⟨0, _⟩ => show win0_8.index t (0 : Fin 2) * 8192 ≤ (i 0).val ∧ (i 0).val < win0_8.index t (0 : Fin 2) * 8192 + 8192; omega
  | ⟨1, _⟩ => show win0_8.index t (1 : Fin 2) * 128 ≤ (i 1).val ∧ (i 1).val < win0_8.index t (1 : Fin 2) * 128 + 128; omega

/-- After the region the output array is the network of the whole staged arrays. -/
theorem outArr_eq (c : Dev nD) : (dats m 0 c).arrAt 8 cfg0.N = netArr m c :=
  (dats m 0 c).arrAt_eq_of_cover 8 (netArr m c) (fun t _ => flushed_eq m c t) (covered)

end Cert.KernelIdeal.Bridge

end
-- ==== Proof.Tail.lean ====
/-
  The lines after the region.

  They cut the first 800000 rows out of the padded output array, add every edge's message into its receiver's row of a
  table of zeros, add that table to the first 128 columns of the node table, and put the node table's last 64 columns
  back beside the sum. All of it is one function of four things: the node table's two column bands, the receivers' row
  numbers, and the messages. Nothing here looks inside that function.
-/
import proofs.«425673_j35691178230141_1_alg».proof.Proof.Gen.KernelIdeal.Frame
import Idealize.ShloMosaic.Lib.StableHlo.Run
import Idealize.ShloMosaic.PureOps.Ideal.Laws

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Scatter-add the messages into the receivers' rows of a zero table, add the node table's first band, and put its
    second band back beside the sum. -/
def tailFn (sc : S50000x128.Idx → EReal) (rs : S50000x64.Idx → EReal) (rv : S800000.Idx → BitVec 32)
    (msgs : S800000x128.Idx → EReal) : S50000x192.Idx → EReal :=
  concatenate S50000x192 1
    [⟨S50000x128, addf (F := Ideal) (φ := .f32) sc
        (Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 rv) msgs)⟩,
      ⟨S50000x64, rs⟩]
    concatenates_S50000x128_S50000x64_S50000x192_d1

/-- Whatever the buffers hold when the lines after the region start, the result buffer ends at the tail function of
    what four of them hold: the two bands, the receivers, and the first 800000 rows of the output array. -/
theorem after_tail (W : Valuation τ sig (Elt Ideal)) :
    StableHlo.after hostOps1 W (Proc.devRef .tc main_v34)
      = tailFn (W (Proc.devRef .tc main_v0)) (W (Proc.devRef .tc main_v1)) (W (Proc.devRef .tc main_v5))
          (extractStridedSlice S800000x128 ![0, 0] (W (Proc.devRef .tc main_v28)) slices_S802816x128_S800000x128_0_0) := by
  after_results
  rfl

/-- The result buffer after the whole program: the tail function of the two bands and the receivers as the region
    found them, and of the first 800000 rows of the output array as the region left it. -/
theorem tail_result (c : Dev nD) :
    Pipeline.afterTail₀ cfgs (dats m) 0 (V0 m) [hostOps1] c main_v34
      = tailFn (V m c main_v0) (V m c main_v1) (V m c main_v5)
          (extractStridedSlice S800000x128 ![0, 0] ((dats m 0 c).arrAt 8 cfg0.N) slices_S802816x128_S800000x128_0_0) := by
  unfold Pipeline.afterTail₀
  show StableHlo.after hostOps1 _ (Proc.devRef .tc main_v34) = _
  rw [after_tail]
  -- the two bands and the receivers are no window's array: the region leaves them as it found them
  have h0 := Pipeline.withArrays_of_ne (cfgs 0).spec c (V0 m c) (fun w => (dats m 0 c).arrAt w (cfgs 0).N) main_v0
    (by exact (by decide : ∀ w, Pipeline.arrRef spec0 w ≠ main_v0))
  have h1 := Pipeline.withArrays_of_ne (cfgs 0).spec c (V0 m c) (fun w => (dats m 0 c).arrAt w (cfgs 0).N) main_v1
    (by exact (by decide : ∀ w, Pipeline.arrRef spec0 w ≠ main_v1))
  have h5 := Pipeline.withArrays_of_ne (cfgs 0).spec c (V0 m c) (fun w => (dats m 0 c).arrAt w (cfgs 0).N) main_v5
    (by exact (by decide : ∀ w, Pipeline.arrRef spec0 w ≠ main_v5))
  -- the output array is the ninth window's: the region leaves it at what the blocks written back make of it
  have h28 : Pipeline.withArrays (cfgs 0).spec c (V0 m c) (fun w => (dats m 0 c).arrAt w (cfgs 0).N) (Proc.devRef .tc main_v28)
      = (dats m 0 c).arrAt 8 cfg0.N :=
    Pipeline.withArrays_arr (cfgs 0).spec winFacts0.arr_inj c (V0 m c) (fun w => (dats m 0 c).arrAt w (cfgs 0).N) 8
  rw [h0, h1, h5, h28]

end Cert.KernelIdeal.Bridge

end
-- ==== Proof.IndexRange.lean ====
/-
  Row numbers of a table of 50000 rows, as signed 32-bit words.

  A row number x with -50000 ≤ x < 50000 is read the usual way: a negative one counts back from the end, so the row
  meant is x + 50000 when x < 0 and x otherwise. That row lies in 0 … 49999, which is what a bounds test of the form
  0 ≤ w ∧ w ≤ 49999 asks.
-/
import Idealize.ShloMosaic.PureOps

namespace EdgeMsg

open Idealize.ShloMosaic

/-- The signed reading of a "greater or equal" test that came out true. -/
theorem sge_one_iff {x c : BitVec 32} : IntOp.cmpi .sge x c = 1#1 ↔ c.toInt ≤ x.toInt := by
  unfold IntOp.cmpi
  cases h : c.sle x <;> simp [BitVec.sle] at h ⊢ <;> omega

/-- The signed reading of a "less than" test that came out true. -/
theorem slt_one_iff {x c : BitVec 32} : IntOp.cmpi .slt x c = 1#1 ↔ x.toInt < c.toInt := by
  unfold IntOp.cmpi
  cases h : x.slt c <;> simp [BitVec.slt] at h ⊢ <;> omega

/-- The signed reading of a "less or equal" test that came out true. -/
theorem sle_one_iff {x c : BitVec 32} : IntOp.cmpi .sle x c = 1#1 ↔ x.toInt ≤ c.toInt := by
  unfold IntOp.cmpi
  cases h : x.sle c <;> simp [BitVec.sle] at h ⊢ <;> omega

/-- The row a row number means: counted from the end when negative. -/
def wrapRow (x : BitVec 32) : BitVec 32 :=
  Scalar.select (IntOp.cmpi .slt x 0#32) (IntOp.addi x 50000#32) x

/-- A row number in -50000 … 49999 means a row in 0 … 49999. -/
theorem wrapRow_inRange {x : BitVec 32} (hlo : IntOp.cmpi .sge x 4294917296#32 = 1#1)
    (hhi : IntOp.cmpi .slt x 50000#32 = 1#1) :
    IntOp.cmpi .sge (wrapRow x) 0#32 = 1#1 ∧ IntOp.cmpi .sle (wrapRow x) 49999#32 = 1#1 := by
  have lo : (-50000 : Int) ≤ x.toInt := by
    have := sge_one_iff.1 hlo
    have e : (4294917296#32 : BitVec 32).toInt = -50000 := by decide
    omega
  have hi : x.toInt < 50000 := by
    have := slt_one_iff.1 hhi
    have e : (50000#32 : BitVec 32).toInt = 50000 := by decide
    omega
  have z : (0#32 : BitVec 32).toInt = 0 := by decide
  have t : (49999#32 : BitVec 32).toInt = 49999 := by decide
  unfold wrapRow Scalar.select
  split
  · -- a negative row number: the row meant is x + 50000, and no wrap-around happens in 32 bits
    rename_i c
    have hneg : x.toInt < 0 := by have := slt_one_iff.1 c; omega
    have s : (IntOp.addi x 50000#32).toInt = x.toInt + 50000 := by
      unfold IntOp.addi
      rw [BitVec.toInt_add]
      have e : (50000#32 : BitVec 32).toInt = 50000 := by decide
      rw [e]
      apply Int.bmod_eq_of_le <;> omega
    exact ⟨sge_one_iff.2 (by omega), sle_one_iff.2 (by omega)⟩
  · -- a non-negative row number means itself
    rename_i c
    have hpos : 0 ≤ x.toInt := by
      by_contra hn
      exact c (slt_one_iff.2 (by omega))
    exact ⟨sge_one_iff.2 (by omega), sle_one_iff.2 (by omega)⟩

end EdgeMsg
-- ==== Proof.HostDefs.lean ====
/-
  Names for what the program's first lines compute from the argument arrays, before the region starts.

  The node table's first 128 columns and its last 64; the two rows of the edge-index array as two lists of row numbers;
  a list of row numbers turned into start indices (a negative number counts from the end of the 50000 rows); the table's
  rows gathered at such indices; and the statement that every row number lies in -50000 … 49999.
-/
import proofs.«425673_j35691178230141_1_alg».proof.Proof.Gen.KernelIdeal.Frame
import proofs.«425673_j35691178230141_1_alg».proof.Proof.RowNet
import proofs.«425673_j35691178230141_1_alg».proof.Proof.IndexRange

noncomputable section

namespace Cert.KernelIdeal.Bridge

open Idealize.ShloMosaic Idealize.ShloMosaic.TcCoe Idealize.ShloMosaic.ValueIdx Idealize.SL.Sem
open Cert.KernelIdeal Cert.KernelIdeal.Gen EdgeMsg

variable (m : (ℓ : Loc nD τ sig) → Buf (Elt Ideal) ℓ) (c : Dev nD)

/-- The argument arrays as launched. -/
abbrev argH : S50000x192.Idx → EReal := m ((c : Thread nD τ).loc main_arg0)
abbrev argEI : S2x800000.Idx → BitVec 32 := m ((c : Thread nD τ).loc main_arg1)
abbrev argEL : S800000.Idx → EReal := m ((c : Thread nD τ).loc main_arg2)
abbrev argW1 : S257x128.Idx → EReal := m ((c : Thread nD τ).loc main_arg3)
abbrev argB1 : S128.Idx → EReal := m ((c : Thread nD τ).loc main_arg4)
abbrev argW2 : S128x128.Idx → EReal := m ((c : Thread nD τ).loc main_arg5)
abbrev argB2 : S128.Idx → EReal := m ((c : Thread nD τ).loc main_arg6)

/-- The first 128 columns of the node table, and the remaining 64. -/
def scal : S50000x128.Idx → EReal := extractStridedSlice S50000x128 ![0, 0] (argH m c) slices_S50000x192_S50000x128_0_0
def rest : S50000x64.Idx → EReal := extractStridedSlice S50000x64 ![0, 128] (argH m c) slices_S50000x192_S50000x64_0_128

/-- The senders' and the receivers' row numbers as given. -/
def sendRaw : S800000.Idx → BitVec 32 :=
  shapeCast S800000 (extractStridedSlice S1x800000 ![0, 0] (argEI m c) slices_S2x800000_S1x800000_0_0) shapeCasts_S1x800000_S800000
def recvRaw : S800000.Idx → BitVec 32 :=
  shapeCast S800000 (extractStridedSlice S1x800000 ![1, 0] (argEI m c) slices_S2x800000_S1x800000_1_0) shapeCasts_S1x800000_S800000

/-- Row numbers with the negative ones counted from the end, as a column of start indices. -/
def startIdx (raw : S800000.Idx → BitVec 32) : S800000x1.Idx → BitVec 32 :=
  broadcastInDim S800000x1 ![0] bcast_S800000_S800000x1_0
    (select (cmpi .slt raw (broadcastInDim S800000 ![] bcast_S_S800000 (constantI S_ 32 0#32)))
      (addi raw (broadcastInDim S800000 ![] bcast_S_S800000 (constantI S_ 32 50000#32))) raw)

/-- The table's rows gathered at a column of start indices. -/
def gathered (idx : S800000x1.Idx → BitVec 32) : S800000x128.Idx → EReal :=
  Host.gather gather_S50000x128_S800000x1_S800000x128_1_0_n_n_0_1_1128 (scal m c) idx

/-- Every row number, of both rows of the index array, lies in -50000 … 49999. -/
def InRange : Prop :=
  ∀ i : S2x800000.Idx, IntOp.cmpi .sge (argEI m c i) 4294917296#32 = 1#1 ∧ IntOp.cmpi .slt (argEI m c i) 50000#32 = 1#1

end Cert.KernelIdeal.Bridge

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.HostPrefix.lean ====
/-
  What the program's first lines leave in the arrays the region reads, entry by entry.

  Before the region the program cuts the first weight matrix (257 rows) into its first 128 rows, its next 128 rows and
  its last row; multiplies every edge's length by that last row, which gives an 800000 × 128 array, and appends 2816
  rows of zeros to it; keeps the second weight matrix as it is; and writes each of the two bias vectors as one row.
  (On extended reals the narrowing of a float to the shorter format is the identity.) So, at row e < 800000 and
  column k, the padded product is length(e) · W1(256, k): the row lies among the operand's rows, where padding reads
  its operand; a column broadcast along the rows reads the column's entry of that row and a row broadcast down the rows
  reads the row's entry of that column. A band of rows cut from row o on reads, at row q, the matrix at row o + q.

  The last three statements name three arrays of the first lines whole: the node table's first 128 columns, its
  remaining 64, and the second row of the index array as a list.
-/
import proofs.«425673_j35691178230141_1_alg».proof.Proof.HostDefs
import proofs.«425673_j35691178230141_1_alg».proof.Proof.LibRowLayers
import Idealize.ShloMosaic.Lib.ValueLayout
import Idealize.ShloMosaic.Lib.KernelVsHost

noncomputable section

namespace Cert.KernelIdeal.Bridge

open Idealize.ShloMosaic Idealize.ShloMosaic.TcCoe Idealize.ShloMosaic.ValueIdx Idealize.SL.Sem
open Cert.KernelIdeal Cert.KernelIdeal.Gen EdgeMsg

variable (m : (ℓ : Loc nD τ sig) → Buf (Elt Ideal) ℓ) (c : Dev nD)

/-- Edge lengths times the last row of the first weight matrix, with rows of zeros appended: at a row below 800000 the
    product itself. -/
theorem win2_apply (e : Fin 800000) (k : Fin 128) :
    V m c main_v22 (ix2 (⟨e.val, by omega⟩ : Fin 802816) k) = argEL m c (ix1 e) * argW1 m c (ix2 lastPos k) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results_simp
  simp only [StableHlo.TRef.ofBuf, StableHlo.TRef.toBuf, cast_eq]
  rw [truncf_apply]
  -- row e is one of the operand's rows: the padded array reads the operand there
  refine (pad_apply_of_inside _ _ _ _ _ _ _ _ (ix2 e k) (fun a => ?_)).trans ?_
  · match a with
    | ⟨0, _⟩ => show e.val = 0 + e.val * (0 + 1); omega
    | ⟨1, _⟩ => show k.val = 0 + k.val * (0 + 1); omega
  -- the product of the two broadcasts: the length of edge e, and entry k of the matrix's row 256
  rw [mulf_apply, RowLayers.columnAcross_apply, RowLayers.columnBroadcast_apply, RowLayers.rowDown_apply,
    RowLayers.rowBroadcast_apply]
  refine congrArg (argEL m c (ix1 e) * ·) ?_
  refine (shapeCast_1a_a_apply _ _ k).trans ?_
  exact slice2_axis0_apply 256 _ _ (0 : Fin 1) k lastPos rfl

/-- The first 128 rows of the first weight matrix. -/
theorem win3_apply (q k : Fin 128) : V m c main_v23 (ix2 q k) = argW1 m c (ix2 (band0 q) k) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rw [truncf_apply]
  exact slice2_axis0_apply 0 _ _ q k (band0 q) (Nat.zero_add _).symm

/-- Its next 128 rows. -/
theorem win4_apply (q k : Fin 128) : V m c main_v24 (ix2 q k) = argW1 m c (ix2 (band1 q) k) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rw [truncf_apply]
  exact slice2_axis0_apply 128 _ _ q k (band1 q) rfl

/-- The second weight matrix, unchanged. -/
theorem win5_apply (i : S128x128.Idx) : V m c main_v25 i = argW2 m c i := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rfl

/-- The first bias vector written as one row. -/
theorem win6_apply (k : Fin 128) : V m c main_v26 (ix2 (0 : Fin 1) k) = argB1 m c (ix1 k) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  exact shapeCast_a_1a_apply _ _ (0 : Fin 1) k

/-- The second bias vector written as one row. -/
theorem win7_apply (k : Fin 128) : V m c main_v27 (ix2 (0 : Fin 1) k) = argB2 m c (ix1 k) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  exact shapeCast_a_1a_apply _ _ (0 : Fin 1) k

/-! The three arrays the lines after the region read. -/

theorem V_scal : V m c main_v0 = scal m c := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rfl

theorem V_rest : V m c main_v1 = rest m c := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rfl

theorem V_recv : V m c main_v5 = recvRaw m c := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rfl

end Cert.KernelIdeal.Bridge

end
-- ==== Proof.HostGather.lean ====
/-
  The two gathered arrays the region's first two windows stage, read at an index.

  Before the region the program's first lines turn each row of the edge-index array into a column of start indices
  (a negative row number counting from the end of the 50000 rows), gather the node table's first 128 columns at those
  indices, keep a gathered row only where its start index lies in 0 … 49999 (a fixed filler otherwise), append 2816
  filler rows and narrow to the 16-bit format. For an edge e below 800000 and a column q the result is the gathered
  row itself: the appended rows are not reached, narrowing changes no extended real, and the start index does lie
  in the table once every row number lies in -50000 … 49999.
-/
import proofs.«425673_j35691178230141_1_alg».proof.Proof.HostDefs
import proofs.«425673_j35691178230141_1_alg».proof.Proof.LibRowLayers
import Idealize.ShloMosaic.Lib.KernelVsHost
import Idealize.ShloMosaic.PureOps.Reduce

noncomputable section

/-! ## Small general readings at an index -/

namespace GatherRead

open Idealize.ShloMosaic Idealize.ShloMosaic.ValueIdx

/-- A one-bit word and-ed with the bit 1 is itself. -/
theorem andi_one_right (b : BitVec 1) : IntOp.andi b 1#1 = b := by revert b; decide

/-- An and-reduction along a second axis of extent one, started from the bit 1, reads at row r the one entry of row r. -/
theorem andReduce_unitAxis {m : ℕ} {u : Shape} (x : (⟨2, ![m, 1]⟩ : Shape).Idx → BitVec 1) (init : u.Idx → BitVec 1)
    (h' : (⟨2, ![m, 1]⟩ : Shape).ReducesTo [1] ⟨1, ![m]⟩) (hu : 0 < u.numel)
    (hinit : init (Shape.Idx.first hu) = 1#1) (r : Fin m) :
    Host.reduce IntOp.andi x init h' hu (ix1 r) = x (ix2 r (0 : Fin 1)) := by
  have h : (⟨2, ![m, 1]⟩ : Shape).Reduces [1] ⟨1, ![m]⟩ := ⟨h'.1, Nat.one_pos, h'.2⟩
  rw [Host.reduce_eq_fold_single IntOp.andi x init h' h hu (ix1 r), hinit]
  show (Finset.univ : Finset (Fin 1)).fold IntOp.andi 1#1 (fun k : Fin 1 => x (h.lift (ix1 r) k)) = _
  rw [Finset.univ_unique, Finset.fold_singleton, andi_one_right]
  show x (h.lift (ix1 r) (0 : Fin 1)) = _
  refine congrArg x (funext fun a => ?_)
  match a with
  | ⟨0, _⟩ => exact Fin.ext rfl
  | ⟨1, _⟩ => exact Fin.ext rfl

/-- Rows appended below a matrix (no padding in front, none between, none along the columns): above the appended
    rows the padded matrix reads the matrix itself. -/
theorem padBelow_apply {α : Type} {m M k p : ℕ} {u : Shape} (x : (⟨2, ![m, k]⟩ : Shape).Idx → α) (v : u.Idx → α)
    (h : (⟨2, ![m, k]⟩ : Shape).Pads ![0, 0] ![p, 0] ![0, 0] ⟨2, ![M, k]⟩) (hu : 0 < u.numel)
    (r : Fin m) (hr : r.val < M) (j : Fin k) :
    pad ⟨2, ![M, k]⟩ ![0, 0] ![p, 0] ![0, 0] x v h hu (ix2 (⟨r.val, hr⟩ : Fin M) j) = x (ix2 r j) := by
  refine pad_apply_of_inside ![0, 0] ![p, 0] ![0, 0] x v h hu (ix2 (⟨r.val, hr⟩ : Fin M) j) (ix2 r j) fun a => ?_
  match a with
  | ⟨0, _⟩ => show r.val = 0 + r.val * (0 + 1); omega
  | ⟨1, _⟩ => show j.val = 0 + j.val * (0 + 1); omega

/-- A scalar word broadcast over any shape reads the word. -/
theorem wordBroadcast_apply {t : Shape} {w : ℕ} (b : BitVec w) (h : (⟨0, ![]⟩ : Shape).BroadcastsInDim t ![]) (i : t.Idx) :
    broadcastInDim t ![] h (constantI ⟨0, ![]⟩ w b) i = b :=
  broadcastInDim_apply ![] h _ i ix0 (fun a => a.elim0)

/-- A vector of m entries copied along k columns reads, at (r, j), entry r. -/
theorem entryAcross_apply {α : Type} {m k : ℕ} (h : (⟨1, ![m]⟩ : Shape).BroadcastsInDim ⟨2, ![m, k]⟩ ![0])
    (v : (⟨1, ![m]⟩ : Shape).Idx → α) (r : Fin m) (j : Fin k) :
    broadcastInDim ⟨2, ![m, k]⟩ ![0] h v (ix2 r j) = v (ix1 r) := by
  refine broadcastInDim_apply ![0] h v (ix2 r j) (ix1 r) fun a => ?_
  match a with
  | ⟨0, _⟩ =>
    show r.val = if m = 1 then 0 else r.val
    split
    · have := r.isLt; omega
    · rfl

/-- A one-row matrix of n columns cast to a vector reads, at j, the row's entry j. -/
theorem oneRowCast_apply {α : Type} {n : ℕ} (h : (⟨2, ![1, n]⟩ : Shape).ShapeCasts ⟨1, ![n]⟩)
    (v : (⟨2, ![1, n]⟩ : Shape).Idx → α) (j : Fin n) :
    shapeCast ⟨1, ![n]⟩ v h (ix1 j) = v (ix2 (0 : Fin 1) j) := by
  refine shapeCast_apply v h (ix1 j) (ix2 (0 : Fin 1) j) ?_
  rw [Shape.rowMajor_val_two, Shape.rowMajor_val_one]
  show 0 * n + j.val = j.val
  omega

/-- Row a of a matrix of p rows, cut out as a one-row matrix, reads at (0, j) the matrix at (a, j). -/
theorem rowSlice_apply {α : Type} {p n : ℕ} (a : Fin p) (h : (⟨2, ![p, n]⟩ : Shape).Slices ![a.val, 0] ⟨2, ![1, n]⟩)
    (v : (⟨2, ![p, n]⟩ : Shape).Idx → α) (j : Fin n) :
    extractStridedSlice ⟨2, ![1, n]⟩ ![a.val, 0] v h (ix2 (0 : Fin 1) j) = v (ix2 a j) := by
  refine extractStridedSlice_apply ![a.val, 0] v h (ix2 (0 : Fin 1) j) (ix2 a j) fun b => ?_
  match b with
  | ⟨0, _⟩ => show a.val = a.val + 0; omega
  | ⟨1, _⟩ => show j.val = 0 + j.val; omega

end GatherRead

/-! ## Buffers read at their value's own type

An operation of a local function names its buffers together with the type of the value each holds. Reading a buffer
at that type, an operation's own result buffer holds its function of what its operand buffers held, and every other
buffer holds what it held. -/

namespace GatherRead.Typed

open Idealize.ShloMosaic Idealize.ShloMosaic.StableHlo

variable {τ : Topo} {sig : RefSig} {Val : EltTy → Type} {T Tx Ta Tb Tc Ty : BufTy}

/-- What a typed reference's buffer holds, at the value's type. -/
def rd (x : TRef sig T) (F : Valuation τ sig Val) : T.Contents Val := x.ofBuf (F (Proc.devRef .tc x.ref))

theorem ofBuf_toBuf (x : TRef sig T) (v : T.Contents Val) : x.ofBuf (Val := Val) (x.toBuf v) = v := by
  obtain ⟨r, h, d, u⟩ := x
  subst h
  rfl

theorem rd_nullary (y : TRef sig Ty) (v : Ty.Contents Val) (F : Valuation τ sig Val) :
    rd y ((TRef.nullary (τ := τ) y v).result F) = v := by
  unfold rd
  rw [nullary_result]
  exact ofBuf_toBuf y v

theorem rd_unary (x : TRef sig Tx) (y : TRef sig Ty) (f : Tx.Contents Val → Ty.Contents Val) (F : Valuation τ sig Val) :
    rd y ((TRef.unary (τ := τ) x y f).result F) = f (rd x F) := by
  unfold rd
  rw [unary_result]
  exact ofBuf_toBuf y _

theorem rd_binary (a : TRef sig Ta) (b : TRef sig Tb) (y : TRef sig Ty)
    (f : Ta.Contents Val → Tb.Contents Val → Ty.Contents Val) (F : Valuation τ sig Val) :
    rd y ((TRef.binary (τ := τ) a b y f).result F) = f (rd a F) (rd b F) := by
  unfold rd
  rw [binary_result]
  exact ofBuf_toBuf y _

theorem rd_ternary (c : TRef sig Tc) (a : TRef sig Ta) (b : TRef sig Tb) (y : TRef sig Ty)
    (f : Tc.Contents Val → Ta.Contents Val → Tb.Contents Val → Ty.Contents Val) (F : Valuation τ sig Val) :
    rd y ((TRef.ternary (τ := τ) c a b y f).result F) = f (rd c F) (rd a F) (rd b F) := by
  unfold rd
  rw [ternary_result]
  exact ofBuf_toBuf y _

theorem rd_nullary_ne (y : TRef sig Ty) (v : Ty.Contents Val) (F : Valuation τ sig Val) (z : TRef sig T)
    (h : z.ref ≠ y.ref) : rd z ((TRef.nullary (τ := τ) y v).result F) = rd z F := by
  unfold rd
  rw [nullary_result_ne (h := h)]

theorem rd_unary_ne (x : TRef sig Tx) (y : TRef sig Ty) (f : Tx.Contents Val → Ty.Contents Val) (F : Valuation τ sig Val)
    (z : TRef sig T) (h : z.ref ≠ y.ref) : rd z ((TRef.unary (τ := τ) x y f).result F) = rd z F := by
  unfold rd
  rw [unary_result_ne (h := h)]

theorem rd_binary_ne (a : TRef sig Ta) (b : TRef sig Tb) (y : TRef sig Ty)
    (f : Ta.Contents Val → Tb.Contents Val → Ty.Contents Val) (F : Valuation τ sig Val) (z : TRef sig T)
    (h : z.ref ≠ y.ref) : rd z ((TRef.binary (τ := τ) a b y f).result F) = rd z F := by
  unfold rd
  rw [binary_result_ne (h := h)]

theorem rd_ternary_ne (c : TRef sig Tc) (a : TRef sig Ta) (b : TRef sig Tb) (y : TRef sig Ty)
    (f : Tc.Contents Val → Ta.Contents Val → Tb.Contents Val → Ty.Contents Val) (F : Valuation τ sig Val) (z : TRef sig T)
    (h : z.ref ≠ y.ref) : rd z ((TRef.ternary (τ := τ) c a b y f).result F) = rd z F := by
  unfold rd
  rw [ternary_result_ne (h := h)]

end GatherRead.Typed

namespace Cert.KernelIdeal.Bridge

open Idealize.ShloMosaic Idealize.ShloMosaic.TcCoe Idealize.ShloMosaic.ValueIdx Idealize.SL.Sem
open Cert.KernelIdeal Cert.KernelIdeal.Gen EdgeMsg

variable (m : (ℓ : Loc nD τ sig) → Buf (Elt Ideal) ℓ) (c : Dev nD)

namespace Gather

/-! ## What is staged for the region, as a function of a table and a column of start indices -/

/-- Per edge, the bit "the start index lies in 0 … 49999", copied along the 128 columns. -/
def inTable (idx : S800000x1.Idx → BitVec 32) : S800000x128.Idx → BitVec 1 :=
  broadcastInDim S800000x128 ![0] bcast_S800000_S800000x128_0
    (Host.reduce IntOp.andi
      (andi (cmpi .sge idx (broadcastInDim S800000x1 ![] bcast_S_S800000x1 (constantI S_ 32 0#32)))
        (cmpi .sle idx (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The table's rows at a column of start indices where the index lies in the table, a fixed filler elsewhere. -/
def takenOf (table : S50000x128.Idx → EReal) (idx : S800000x1.Idx → BitVec 32) : S800000x128.Idx → EReal :=
  select (inTable idx) (Host.gather gather_S50000x128_S800000x1_S800000x128_1_0_n_n_0_1_1128 table idx)
    (broadcastInDim S800000x128 ![] bcast_S_S800000x128 (constant (F := Ideal) S_ .f32 0x7FC00000#32))

/-- Those rows with 2816 filler rows appended, narrowed to the 16-bit format (which changes nothing on extended
    reals). -/
def stagedOf (table : S50000x128.Idx → EReal) (idx : S800000x1.Idx → BitVec 32) : S802816x128.Idx → EReal :=
  truncf (F := Ideal) .bf16
    (pad S802816x128 ![0, 0] ![2816, 0] ![0, 0] (takenOf table idx)
      (sitofp (F := Ideal) .f32 (constantI S_ 32 0#32)) pads_S800000x128_S802816x128_028160_000 h_S_) bitsLt_bf16_f32

/-- A start index is the row its row number means. -/
theorem startIdx_apply (raw : S800000.Idx → BitVec 32) (e : Fin 800000) (u : Fin 1) :
    startIdx raw (ix2 e u) = wrapRow (raw (ix1 e)) := by
  unfold startIdx
  refine (RowLayers.columnBroadcast_apply bcast_S800000_S800000x1_0 _ e u).trans ?_
  show Scalar.select
      (IntOp.cmpi .slt (raw (ix1 e)) (broadcastInDim S800000 ![] bcast_S_S800000 (constantI S_ 32 0#32) (ix1 e)))
      (IntOp.addi (raw (ix1 e)) (broadcastInDim S800000 ![] bcast_S_S800000 (constantI S_ 32 50000#32) (ix1 e)))
      (raw (ix1 e)) = _
  rw [GatherRead.wordBroadcast_apply, GatherRead.wordBroadcast_apply]
  rfl

/-- Where the start index of edge e lies in 0 … 49999 the bit is 1 on the whole of row e. -/
theorem inTable_apply (idx : S800000x1.Idx → BitVec 32) (e : Fin 800000) (q : Fin 128)
    (hlo : IntOp.cmpi .sge (idx (ix2 e (0 : Fin 1))) 0#32 = 1#1)
    (hhi : IntOp.cmpi .sle (idx (ix2 e (0 : Fin 1))) 49999#32 = 1#1) :
    inTable idx (ix2 e q) = 1#1 := by
  unfold inTable
  refine (GatherRead.entryAcross_apply bcast_S800000_S800000x128_0 _ e q).trans ?_
  refine (GatherRead.andReduce_unitAxis _ _ reducesTo_S800000x1_S800000_d1 h_S_ rfl e).trans ?_
  show IntOp.andi
      (IntOp.cmpi .sge (idx (ix2 e (0 : Fin 1)))
        (broadcastInDim S800000x1 ![] bcast_S_S800000x1 (constantI S_ 32 0#32) (ix2 e (0 : Fin 1))))
      (IntOp.cmpi .sle (idx (ix2 e (0 : Fin 1)))
        (broadcastInDim S800000x1 ![0, 1] bcast_S1x1_S800000x1_0_1
          (broadcastInDim S1x1 ![1] bcast_S1_S1x1_1 (constantI S1 32 49999#32)) (ix2 e (0 : Fin 1)))) = 1#1
  rw [GatherRead.wordBroadcast_apply, RowLayers.rowDown_apply bcast_S1x1_S800000x1_0_1,
    RowLayers.rowBroadcast_apply bcast_S1_S1x1_1]
  exact IntOp.andi_eq_one.2 ⟨hlo, hhi⟩

/-- Above the appended rows, and where the start index lies in the table, what is staged is the gathered row. -/
theorem stagedOf_apply (table : S50000x128.Idx → EReal) (idx : S800000x1.Idx → BitVec 32) (e : Fin 800000) (q : Fin 128)
    (hlo : IntOp.cmpi .sge (idx (ix2 e (0 : Fin 1))) 0#32 = 1#1)
    (hhi : IntOp.cmpi .sle (idx (ix2 e (0 : Fin 1))) 49999#32 = 1#1) :
    stagedOf table idx (ix2 (⟨e.val, by omega⟩ : Fin 802816) q)
      = Host.gather gather_S50000x128_S800000x1_S800000x128_1_0_n_n_0_1_1128 table idx (ix2 e q) := by
  unfold stagedOf takenOf
  rw [truncf_apply]
  refine (GatherRead.padBelow_apply _ _ pads_S800000x128_S802816x128_028160_000 h_S_ e (by omega) q).trans ?_
  rw [select_apply, inTable_apply idx e q hlo hhi, select_one]

/-- The senders' row number of edge e is the index array at (0, e); the receivers' is the array at (1, e). -/
theorem sendRaw_apply (e : Fin 800000) : sendRaw m c (ix1 e) = argEI m c (ix2 (0 : Fin 2) e) := by
  unfold sendRaw
  rw [GatherRead.oneRowCast_apply shapeCasts_S1x800000_S800000]
  exact GatherRead.rowSlice_apply (0 : Fin 2) slices_S2x800000_S1x800000_0_0 _ e

theorem recvRaw_apply (e : Fin 800000) : recvRaw m c (ix1 e) = argEI m c (ix2 (1 : Fin 2) e) := by
  unfold recvRaw
  rw [GatherRead.oneRowCast_apply shapeCasts_S1x800000_S800000]
  exact GatherRead.rowSlice_apply (1 : Fin 2) slices_S2x800000_S1x800000_1_0 _ e

/-- With every row number in -50000 … 49999, the start index made from either row of the index array lies in the table. -/
theorem startIdx_inTable (raw : S800000.Idx → BitVec 32) (e : Fin 800000) (i : S2x800000.Idx)
    (hr : InRange m c) (hraw : raw (ix1 e) = argEI m c i) :
    IntOp.cmpi .sge (startIdx raw (ix2 e (0 : Fin 1))) 0#32 = 1#1
      ∧ IntOp.cmpi .sle (startIdx raw (ix2 e (0 : Fin 1))) 49999#32 = 1#1 := by
  rw [startIdx_apply, hraw]
  exact wrapRow_inRange (hr i).1 (hr i).2

/-! ## What each group of the program's first lines leaves in a buffer, from any contents W -/

section Groups

open Idealize.ShloMosaic.StableHlo GatherRead.Typed

variable (W : Valuation τ sig (Elt Ideal))

theorem rd_v0 : rd (.of main_v0 : TRef sig ⟨S50000x128, .f32⟩) W = W (Proc.devRef .tc main_v0) := rfl
theorem rd_v3 : rd (.of main_v3 : TRef sig ⟨S800000, .i32⟩) W = W (Proc.devRef .tc main_v3) := rfl
theorem rd_v5 : rd (.of main_v5 : TRef sig ⟨S800000, .i32⟩) W = W (Proc.devRef .tc main_v5) := rfl
theorem rd_v6 : rd (.of main_v6 : TRef sig ⟨S800000x128, .f32⟩) W = W (Proc.devRef .tc main_v6) := rfl
theorem rd_v7 : rd (.of main_v7 : TRef sig ⟨S800000x128, .f32⟩) W = W (Proc.devRef .tc main_v7) := rfl
theorem rd_c : rd (.of main_c : TRef sig ⟨S_, .i32⟩) W = W (Proc.devRef .tc main_c) := rfl
theorem rd_c0 : rd (.of main_c_0 : TRef sig ⟨S_, .i32⟩) W = W (Proc.devRef .tc main_c_0) := rfl
theorem rd_v17 : rd (.of main_v17 : TRef sig ⟨S802816x128, .f32⟩) W = W (Proc.devRef .tc main_v17) := rfl
theorem rd_v19 : rd (.of main_v19 : TRef sig ⟨S802816x128, .f32⟩) W = W (Proc.devRef .tc main_v19) := rfl

/-- The first lines cut the table's first 128 columns and the two rows of the index array. -/
theorem first_v0 : after hostOps0 W (Proc.devRef .tc main_v0)
    = extractStridedSlice S50000x128 ![0, 0] (W (Proc.devRef .tc main_arg0)) slices_S50000x192_S50000x128_0_0 := by
  simp only [Gen.hostOps0]; after_results <;> rfl

theorem first_v3 : after hostOps0 W (Proc.devRef .tc main_v3)
    = shapeCast S800000 (extractStridedSlice S1x800000 ![0, 0] (W (Proc.devRef .tc main_arg1)) slices_S2x800000_S1x800000_0_0)
        shapeCasts_S1x800000_S800000 := by
  simp only [Gen.hostOps0]; after_results <;> rfl

theorem first_v5 : after hostOps0 W (Proc.devRef .tc main_v5)
    = shapeCast S800000 (extractStridedSlice S1x800000 ![1, 0] (W (Proc.devRef .tc main_arg1)) slices_S2x800000_S1x800000_1_0)
        shapeCasts_S1x800000_S800000 := by
  simp only [Gen.hostOps0]; after_results <;> rfl

/-- The first gather, from the senders' row numbers; the second, from the receivers'. -/
theorem take0_v6 : after hostOps0_1 W (Proc.devRef .tc main_v6)
    = takenOf (W (Proc.devRef .tc main_v0)) (startIdx (W (Proc.devRef .tc main_v3))) := by
  rw [← rd_v6 (after hostOps0_1 W)]
  simp only [Gen.hostOps0_1, after_cons, after_nil]
  simp (disch := decide) only [rd_nullary, rd_unary, rd_binary, rd_ternary, rd_nullary_ne, rd_unary_ne, rd_binary_ne,
    rd_ternary_ne]
  rw [rd_v0, rd_v3]
  rfl

theorem take1_v7 : after hostOps0_2 W (Proc.devRef .tc main_v7)
    = takenOf (W (Proc.devRef .tc main_v0)) (startIdx (W (Proc.devRef .tc main_v5))) := by
  rw [← rd_v7 (after hostOps0_2 W)]
  simp only [Gen.hostOps0_2, after_cons, after_nil]
  simp (disch := decide) only [rd_nullary, rd_unary, rd_binary, rd_ternary, rd_nullary_ne, rd_unary_ne, rd_binary_ne,
    rd_ternary_ne]
  rw [rd_v0, rd_v5]
  rfl

/-- The integer zero that becomes the filler of the appended rows. -/
theorem zero_c : after hostOps0_3 W (Proc.devRef .tc main_c) = constantI S_ 32 0#32 := by
  simp only [Gen.hostOps0_3]; after_results <;> rfl

theorem zero_c0 : after hostOps0_5 W (Proc.devRef .tc main_c_0) = constantI S_ 32 0#32 := by
  simp only [Gen.hostOps0_5]; after_results <;> rfl

/-- The rows appended below each gathered array. -/
theorem pad0_v17 : after hostOps0_4 W (Proc.devRef .tc main_v17)
    = pad S802816x128 ![0, 0] ![2816, 0] ![0, 0] (W (Proc.devRef .tc main_v6))
        (sitofp (F := Ideal) .f32 (W (Proc.devRef .tc main_c))) pads_S800000x128_S802816x128_028160_000 h_S_ := by
  rw [← rd_v17 (after hostOps0_4 W)]
  simp only [Gen.hostOps0_4, after_cons, after_nil]
  simp (disch := decide) only [rd_nullary, rd_unary, rd_binary, rd_ternary, rd_nullary_ne, rd_unary_ne, rd_binary_ne,
    rd_ternary_ne]
  rw [rd_v6, rd_c]

theorem pad1_v19 : after hostOps0_6 W (Proc.devRef .tc main_v19)
    = pad S802816x128 ![0, 0] ![2816, 0] ![0, 0] (W (Proc.devRef .tc main_v7))
        (sitofp (F := Ideal) .f32 (W (Proc.devRef .tc main_c_0))) pads_S800000x128_S802816x128_028160_000 h_S_ := by
  rw [← rd_v19 (after hostOps0_6 W)]
  simp only [Gen.hostOps0_6, after_cons, after_nil]
  simp (disch := decide) only [rd_nullary, rd_unary, rd_binary, rd_ternary, rd_nullary_ne, rd_unary_ne, rd_binary_ne,
    rd_ternary_ne]
  rw [rd_v7, rd_c0]

/-- The narrowing to the 16-bit format. -/
theorem trunc0_v18 : after hostOps0_5 W (Proc.devRef .tc main_v18)
    = truncf (F := Ideal) .bf16 (W (Proc.devRef .tc main_v17)) bitsLt_bf16_f32 := by
  simp only [Gen.hostOps0_5]; after_results <;> rfl

theorem trunc1_v20 : after hostOps0_7 W (Proc.devRef .tc main_v20)
    = truncf (F := Ideal) .bf16 (W (Proc.devRef .tc main_v19)) bitsLt_bf16_f32 := by
  simp only [Gen.hostOps0_7]; after_results <;> rfl

/-! A group of lines leaves alone every buffer none of its lines writes. -/

theorem keep1_v0 : after hostOps0_1 W (Proc.devRef .tc main_v0) = W (Proc.devRef .tc main_v0) := by
  simp only [Gen.hostOps0_1]; after_results_simp
theorem keep1_v5 : after hostOps0_1 W (Proc.devRef .tc main_v5) = W (Proc.devRef .tc main_v5) := by
  simp only [Gen.hostOps0_1]; after_results_simp
theorem keep2_v6 : after hostOps0_2 W (Proc.devRef .tc main_v6) = W (Proc.devRef .tc main_v6) := by
  simp only [Gen.hostOps0_2]; after_results_simp
theorem keep3_v6 : after hostOps0_3 W (Proc.devRef .tc main_v6) = W (Proc.devRef .tc main_v6) := by
  simp only [Gen.hostOps0_3]; after_results_simp
theorem keep3_v7 : after hostOps0_3 W (Proc.devRef .tc main_v7) = W (Proc.devRef .tc main_v7) := by
  simp only [Gen.hostOps0_3]; after_results_simp
theorem keep4_v7 : after hostOps0_4 W (Proc.devRef .tc main_v7) = W (Proc.devRef .tc main_v7) := by
  simp only [Gen.hostOps0_4]; after_results_simp
theorem keep5_v7 : after hostOps0_5 W (Proc.devRef .tc main_v7) = W (Proc.devRef .tc main_v7) := by
  simp only [Gen.hostOps0_5]; after_results_simp
theorem keep6_v18 : after hostOps0_6 W (Proc.devRef .tc main_v18) = W (Proc.devRef .tc main_v18) := by
  simp only [Gen.hostOps0_6]; after_results_simp
theorem keep7_v18 : after hostOps0_7 W (Proc.devRef .tc main_v18) = W (Proc.devRef .tc main_v18) := by
  simp only [Gen.hostOps0_7]; after_results_simp
theorem keep8_v18 : after hostOps0_8 W (Proc.devRef .tc main_v18) = W (Proc.devRef .tc main_v18) := by
  simp only [Gen.hostOps0_8]; after_results_simp
theorem keep9_v18 : after hostOps0_9 W (Proc.devRef .tc main_v18) = W (Proc.devRef .tc main_v18) := by
  simp only [Gen.hostOps0_9]; after_results_simp
theorem keep8_v20 : after hostOps0_8 W (Proc.devRef .tc main_v20) = W (Proc.devRef .tc main_v20) := by
  simp only [Gen.hostOps0_8]; after_results_simp
theorem keep9_v20 : after hostOps0_9 W (Proc.devRef .tc main_v20) = W (Proc.devRef .tc main_v20) := by
  simp only [Gen.hostOps0_9]; after_results_simp

end Groups

/-! ## The two staged arrays as the program's first lines leave them -/

/-- The senders' staged array. -/
theorem V_win0 : V m c main_v18 = stagedOf (scal m c) (startIdx (sendRaw m c)) := by
  dsimp only [Gen.V, Gen.V0]
  simp only [List.flatten_cons, List.flatten_nil, List.append_nil, StableHlo.after_append]
  rw [keep9_v18, keep8_v18, keep7_v18, keep6_v18, trunc0_v18, pad0_v17, zero_c, keep3_v6, keep2_v6, take0_v6,
    first_v0, first_v3]
  rfl

/-- The receivers' staged array. -/
theorem V_win1 : V m c main_v20 = stagedOf (scal m c) (startIdx (recvRaw m c)) := by
  dsimp only [Gen.V, Gen.V0]
  simp only [List.flatten_cons, List.flatten_nil, List.append_nil, StableHlo.after_append]
  rw [keep9_v20, keep8_v20, trunc1_v20, pad1_v19, zero_c0, keep5_v7, keep4_v7, keep3_v7, take1_v7, keep1_v0,
    keep1_v5, first_v0, first_v5]
  rfl

end Gather

open Gather

/-! ## The two staged arrays read at an index -/

theorem win0_apply (hr : InRange m c) (e : Fin 800000) (q : Fin 128) :
    V m c main_v18 (ix2 (⟨e.val, by omega⟩ : Fin 802816) q) = gathered m c (startIdx (sendRaw m c)) (ix2 e q) := by
  obtain ⟨hlo, hhi⟩ := startIdx_inTable m c (sendRaw m c) e (ix2 (0 : Fin 2) e) hr (sendRaw_apply m c e)
  exact (congrFun (V_win0 m c) _).trans (stagedOf_apply (scal m c) _ e q hlo hhi)

theorem win1_apply (hr : InRange m c) (e : Fin 800000) (q : Fin 128) :
    V m c main_v20 (ix2 (⟨e.val, by omega⟩ : Fin 802816) q) = gathered m c (startIdx (recvRaw m c)) (ix2 e q) := by
  obtain ⟨hlo, hhi⟩ := startIdx_inTable m c (recvRaw m c) e (ix2 (1 : Fin 2) e) hr (recvRaw_apply m c e)
  exact (congrFun (V_win1 m c) _).trans (stagedOf_apply (scal m c) _ e q hlo hhi)

end Cert.KernelIdeal.Bridge

end
-- ==== Proof.KernelRun.lean ====
/-
  The kernel program's run, read as values.

  The padded output array is the network of the eight staged arrays. Its first 800000 rows read the staged arrays in
  their first 800000 rows only, where the row-operands are the gathered sender rows, the gathered receiver rows (both
  because every row number is in range, so the out-of-range filler is never chosen) and each edge's length times the
  last row of the first weight matrix; the weight bands and the bias rows are the parameters' own entries. So those rows
  are the messages. The lines after the region turn the messages into the result.
-/
import proofs.«425673_j35691178230141_1_alg».proof.Proof.KernelArray
import proofs.«425673_j35691178230141_1_alg».proof.Proof.Tail
import proofs.«425673_j35691178230141_1_alg».proof.Proof.HostPrefix
import proofs.«425673_j35691178230141_1_alg».proof.Proof.HostGather
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen EdgeMsg

variable (m : (ℓ : Loc nD τ sig) → Buf (Elt Ideal) ℓ)

/-- The messages from the argument arrays: the network of the gathered sender and receiver rows. -/
def msgs (c : Dev nD) : S800000x128.Idx → EReal :=
  msg (gathered m c (startIdx (sendRaw m c))) (gathered m c (startIdx (recvRaw m c))) (argEL m c) (argW1 m c) (argB1 m c)
    (argW2 m c) (argB2 m c)

/-- The first 800000 rows of the padded network are the messages. -/
theorem netArr_rows (c : Dev nD) (hr : InRange m c) :
    extractStridedSlice S800000x128 ![0, 0] (netArr m c) slices_S802816x128_S800000x128_0_0 = msgs m c := by
  funext i
  obtain ⟨e, j, rfl⟩ : ∃ (e : Fin 800000) (j : Fin 128), i = ix2 e j := ⟨i 0, i 1, eq_ix2 i⟩
  have he : e.val < 802816 := by have := e.isLt; omega
  have hs : extractStridedSlice S800000x128 ![0, 0] (netArr m c) slices_S802816x128_S800000x128_0_0 (ix2 e j)
      = netArr m c (ix2 (⟨e.val, he⟩ : Fin 802816) j) :=
    extractStridedSlice_apply _ _ _ _ _ (fun ax => by
      match ax with
      | ⟨0, _⟩ => exact (Nat.zero_add _).symm
      | ⟨1, _⟩ => exact (Nat.zero_add _).symm)
  rw [hs]
  show out (V m c main_v18) (V m c main_v20) (V m c main_v22) (V m c main_v23) (V m c main_v24) (V m c main_v25)
      (V m c main_v26) (V m c main_v27) (⟨e.val, he⟩ : Fin 802816) j = msgs m c (ix2 e j)
  unfold msgs msg
  rw [rowNet_ix2]
  unfold out pre
  simp only [win0_apply m c hr e, win1_apply m c hr e, win2_apply m c e, win3_apply m c, win4_apply m c, win5_apply m c,
    win6_apply m c, win7_apply m c]

/-- Every weakly fair execution of the kernel program terminates, with the result buffer at the tail function of the
    node table's two bands, the receivers and the messages, and the argument arrays unchanged. -/
theorem run_values (ρ : Dev nD → PrngReg) (hr : ∀ c, InRange m c) :
    θ_run defs (onTc (τ := τ) (main (F := Ideal))) ⟨m, fun _ => 0, ρ⟩ (fun r => ∀ c : Dev nD,
      r.2.mem ((c.tc : Thread nD τ).loc main_v34) = tailFn (scal m c) (rest m c) (recvRaw m c) (msgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v34 (Pipeline.mem_restRefs_of main_v34 (by decide) (by decide))).trans (by
        rw [tail_result, outArr_eq, netArr_rows m c (hr c), V_scal, V_rest, V_recv]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Bridge

end
-- ==== Proof.RefChunks.lean ====
import proofs.«425673_j35691178230141_1_alg».proof.Proof.RefOps

noncomputable section

namespace Cert.ReferenceIdeal.Stretch

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations 0 to 24 of the program, in order. -/
abbrev opsA : List (HloOp τ sig (Elt F)) :=
  [ unary main_arg0 main_v0 ((extractStridedSlice S50000x128 ![0, 0] · slices_S50000x192_S50000x128_0_0) : (⟨S50000x192, .f32⟩ : BufTy).Contents (Elt F) → (⟨S50000x128, .f32⟩ : BufTy).Contents (Elt F)),
    unary main_arg0 main_v1 ((extractStridedSlice S50000x64 ![0, 128] · slices_S50000x192_S50000x64_0_128) : (⟨S50000x192, .f32⟩ : BufTy).Contents (Elt F) → (⟨S50000x64, .f32⟩ : BufTy).Contents (Elt F)),
    unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    binary main_v0 main_v11 main_v12 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v13 (broadcastInDim S800000 ![] bcast_S_S800000 : (⟨S_, .i32⟩ : BufTy).Contents (Elt F) → (⟨S800000, .i32⟩ : BufTy).Contents (Elt F)),
    binary main_v5 main_v13 main_v14 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v15 (broadcastInDim S800000 ![] bcast_S_S800000 : (⟨S_, .i32⟩ : BufTy).Contents (Elt F) → (⟨S800000, .i32⟩ : BufTy).Contents (Elt F)),
    binary main_v5 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v5 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_v0 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v20 (broadcastInDim S800000x1 ![0] bcast_S800000_S800000x1_0 : (⟨S800000, .f32⟩ : BufTy).Contents (Elt F) → (⟨S800000x1, .f32⟩ : BufTy).Contents (Elt F)) ]

/-- Operations 25 to 29 of the program, in order. -/
abbrev opsB : List (HloOp τ sig (Elt F)) :=
  [ nary ![main_v12, main_v19, main_v20] main_v21 (fun u => concatenate S800000x257 1 [⟨S800000x128, u 0⟩, ⟨S800000x128, u 1⟩, ⟨S800000x1, u 2⟩] concatenates_S800000x128_S800000x128_S800000x1_S800000x257_d1),
    binary main_v21 main_arg3 main_v22 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S800000x128 ![0, 1] bcast_S1x128_S800000x128_0_1 : (⟨S1x128, .f32⟩ : BufTy).Contents (Elt F) → (⟨S800000x128, .f32⟩ : BufTy).Contents (Elt F)),
    binary main_v22 main_v24 main_v25 (addf : (⟨S800000x128, .f32⟩ : BufTy).Contents (Elt F) → (⟨S800000x128, .f32⟩ : BufTy).Contents (Elt F) → (⟨S800000x128, .f32⟩ : BufTy).Contents (Elt F)) ]

/-- Operations 30 to 42 of the program, in order. -/
abbrev opsC : List (HloOp τ sig (Elt F)) :=
  [ TRef.unary (TRef.of (T := ⟨S800000x128, .f32⟩) main_v25) (TRef.of (T := ⟨S800000x128, .f32⟩) main_call0_v0) Host.negf,
    TRef.unary (TRef.of (T := ⟨S800000x128, .f32⟩) main_call0_v0) (TRef.of (T := ⟨S800000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S800000x128, .f32⟩) main_call0_v2) (broadcastInDim S800000x128 ![] bcast_S_S800000x128),
    TRef.binary (TRef.of (T := ⟨S800000x128, .f32⟩) main_call0_v2) (TRef.of (T := ⟨S800000x128, .f32⟩) main_call0_v1) (TRef.of (T := ⟨S800000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S800000x128, .f32⟩) main_call0_v4) (broadcastInDim S800000x128 ![] bcast_S_S800000x128),
    TRef.binary (TRef.of (T := ⟨S800000x128, .f32⟩) main_call0_v4) (TRef.of (T := ⟨S800000x128, .f32⟩) main_call0_v3) (TRef.of (T := ⟨S800000x128, .f32⟩) main_call0_v5) Host.divf,
    TRef.binary (TRef.of (T := ⟨S800000x128, .f32⟩) main_v25) (TRef.of (T := ⟨S800000x128, .f32⟩) main_call0_v5) (TRef.of (T := ⟨S800000x128, .f32⟩) main_v26) mulf,
    binary main_v26 main_arg5 main_v27 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v28 (broadcastInDim S1x128 ![1] bcast_S128_S1x128_1 : (⟨S128, .f32⟩ : BufTy).Contents (Elt F) → (⟨S1x128, .f32⟩ : BufTy).Contents (Elt F)),
    unary main_v28 main_v29 (broadcastInDim S800000x128 ![0, 1] bcast_S1x128_S800000x128_0_1 : (⟨S1x128, .f32⟩ : BufTy).Contents (Elt F) → (⟨S800000x128, .f32⟩ : BufTy).Contents (Elt F)),
    binary main_v27 main_v29 main_v30 (addf : (⟨S800000x128, .f32⟩ : BufTy).Contents (Elt F) → (⟨S800000x128, .f32⟩ : BufTy).Contents (Elt F) → (⟨S800000x128, .f32⟩ : BufTy).Contents (Elt F)) ]

/-- Operations 43 to 48 of the program, in order. -/
abbrev opsD : List (HloOp τ sig (Elt F)) :=
  [ nullary main_cst (constant S_ .f32 0x00000000#32),
    unary main_cst main_v31 (broadcastInDim S50000x128 ![] bcast_S_S50000x128 : (⟨S_, .f32⟩ : BufTy).Contents (Elt F) → (⟨S50000x128, .f32⟩ : BufTy).Contents (Elt F)),
    unary main_v5 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v0 main_v33 main_v34 (addf : (⟨S50000x128, .f32⟩ : BufTy).Contents (Elt F) → (⟨S50000x128, .f32⟩ : BufTy).Contents (Elt F) → (⟨S50000x128, .f32⟩ : BufTy).Contents (Elt F)),
    binary main_v34 main_v1 main_v35 ((fun a b => concatenate S50000x192 1 [⟨S50000x128, a⟩, ⟨S50000x64, b⟩] concatenates_S50000x128_S50000x64_S50000x192_d1) : (⟨S50000x128, .f32⟩ : BufTy).Contents (Elt F) → (⟨S50000x64, .f32⟩ : BufTy).Contents (Elt F) → (⟨S50000x192, .f32⟩ : BufTy).Contents (Elt F)) ]

/-- The program's operation list is the stretches one after the other. -/
theorem ops_eq : (ops : List (HloOp τ sig (Elt F))) = (opsA (F := F)) ++ (opsB (F := F)) ++ (opsC (F := F)) ++ (opsD (F := F)) := rfl

end Cert.ReferenceIdeal.Stretch

end
-- ==== Proof.LibHostThree.lean ====
/-
  A host operation over three operand buffers, read at its own result buffer.

  An operation that takes a family of n operand buffers writes, into its result buffer, a function of the family of the
  operands' contents. For a literal family of three buffers x, a, b that family is the three contents one after the
  other: the first is what x holds, the second what a holds, the third what b holds. Stated this way each operand's
  contents stands at its own buffer, outside any binder, so that whatever is known of those three buffers can be
  rewritten next.
-/
import Idealize.ShloMosaic.Lib.StableHlo.Run

namespace HostThree

open Idealize.ShloMosaic Idealize.ShloMosaic.StableHlo

variable {nD : Nat} {τ : Topo} {sig : RefSig} {Val : EltTy → Type}
variable {x a b y : Ref sig .tc}

/-- The result buffer of an operation over the three buffers x, a, b holds the operation's function of the three
    contents, listed in order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result buffer left out of the rewriting index, so that a simplifier pass can use it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end HostThree
-- ==== Proof.RefRunValues.lean ====
/-
  The reference program's run, read as values, one stretch of operations at a time.

  The program is 49 host operations in a row. Whatever the buffers hold before a stretch, each buffer a later stretch
  reads holds, after it, a fixed function of what a few buffers held before: the stretch's operations composed. The first
  stretch makes the table's two column bands, the receivers' row numbers, the gathered sender and receiver rows and the
  lengths as a column; the second lays the three pieces of a row side by side and applies the first layer; the third the
  activation and the second layer; the fourth adds the messages into the receivers' rows and rebuilds the table. Put one
  after the other, the result buffer holds the last stage value of the argument arrays, and no operation writes an
  argument array.
-/
import proofs.«425673_j35691178230141_1_alg».proof.Proof.RefChunks
import proofs.«425673_j35691178230141_1_alg».proof.Proof.RefRead
import proofs.«425673_j35691178230141_1_alg».proof.Proof.LibHostThree
import Idealize.ShloMosaic.Lib.StableHlo.Run
import Idealize.ShloMosaic.Lib.Pipeline.Frame

set_option maxRecDepth 8192

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Read a buffer after a literal stretch of operations: each operation's result at its own buffer is its function of
    its operands' contents, and at any other buffer what was there; rewrite until neither applies. -/
macro "host_results" : tactic =>
  `(tactic| (simp only [after_cons, after_nil]
             repeat (first
               | rw [HostThree.nary3_result]
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

variable (W : Valuation τ sig (Elt F))

/-! ## First stretch: bands, row numbers, gathered rows, lengths as a column -/

theorem A_v0 : after (opsA (F := F)) W (Proc.devRef .tc main_v0) = val_main_v0 (F := F) (W (Proc.devRef .tc main_arg0)) := by
  host_results <;> rfl
theorem A_v1 : after (opsA (F := F)) W (Proc.devRef .tc main_v1) = val_main_v1 (F := F) (W (Proc.devRef .tc main_arg0)) := by
  host_results <;> rfl
theorem A_v5 : after (opsA (F := F)) W (Proc.devRef .tc main_v5) = val_main_v5 (F := F) (W (Proc.devRef .tc main_arg1)) := by
  host_results <;> rfl
theorem A_v12 : after (opsA (F := F)) W (Proc.devRef .tc main_v12) = val_main_v12 (F := F) (W (Proc.devRef .tc main_arg0)) (W (Proc.devRef .tc main_arg1)) := by
  host_results <;> rfl
theorem A_v19 : after (opsA (F := F)) W (Proc.devRef .tc main_v19) = val_main_v19 (F := F) (W (Proc.devRef .tc main_arg0)) (W (Proc.devRef .tc main_arg1)) := by
  host_results <;> rfl
theorem A_v20 : after (opsA (F := F)) W (Proc.devRef .tc main_v20) = val_main_v20 (F := F) (W (Proc.devRef .tc main_arg2)) := by
  host_results <;> rfl
theorem A_arg3 : after (opsA (F := F)) W (Proc.devRef .tc main_arg3) = W (Proc.devRef .tc main_arg3) := by
  host_results
theorem A_arg4 : after (opsA (F := F)) W (Proc.devRef .tc main_arg4) = W (Proc.devRef .tc main_arg4) := by
  host_results
theorem A_arg5 : after (opsA (F := F)) W (Proc.devRef .tc main_arg5) = W (Proc.devRef .tc main_arg5) := by
  host_results
theorem A_arg6 : after (opsA (F := F)) W (Proc.devRef .tc main_arg6) = W (Proc.devRef .tc main_arg6) := by
  host_results

/-! ## Second stretch: the three pieces side by side, and the first layer -/

theorem B_v25 : after (opsB (F := F)) W (Proc.devRef .tc main_v25)
    = addf (Host.dotGeneral dot_S800000x257_S257x128_S800000x128_1_0_0_1_n_n none
        (concatenate S800000x257 1 [⟨S800000x128, W (Proc.devRef .tc main_v12)⟩, ⟨S800000x128, W (Proc.devRef .tc main_v19)⟩, ⟨S800000x1, W (Proc.devRef .tc main_v20)⟩]
          concatenates_S800000x128_S800000x128_S800000x1_S800000x257_d1) (W (Proc.devRef .tc main_arg3)))
      (broadcastInDim S800000x128 ![0, 1] bcast_S1x128_S800000x128_0_1 (broadcastInDim S1x128 ![1] bcast_S128_S1x128_1 (W (Proc.devRef .tc main_arg4)))) := by
  host_results <;> rfl
theorem B_v0 : after (opsB (F := F)) W (Proc.devRef .tc main_v0) = W (Proc.devRef .tc main_v0) := by
  host_results
theorem B_v1 : after (opsB (F := F)) W (Proc.devRef .tc main_v1) = W (Proc.devRef .tc main_v1) := by
  host_results
theorem B_v5 : after (opsB (F := F)) W (Proc.devRef .tc main_v5) = W (Proc.devRef .tc main_v5) := by
  host_results
theorem B_arg5 : after (opsB (F := F)) W (Proc.devRef .tc main_arg5) = W (Proc.devRef .tc main_arg5) := by
  host_results
theorem B_arg6 : after (opsB (F := F)) W (Proc.devRef .tc main_arg6) = W (Proc.devRef .tc main_arg6) := by
  host_results

/-! ## Third stretch: the activation and the second layer -/

theorem C_v30 : after (opsC (F := F)) W (Proc.devRef .tc main_v30)
    = addf (Host.dotGeneral dot_S800000x128_S128x128_S800000x128_1_0_0_1_n_n none
        (mulf (W (Proc.devRef .tc main_v25))
          (Host.divf (broadcastInDim S800000x128 ![] bcast_S_S800000x128 (constant S_ .f32 0x3F800000#32))
            (addf (broadcastInDim S800000x128 ![] bcast_S_S800000x128 (constant S_ .f32 0x3F800000#32))
              (Host.exp (Host.negf (W (Proc.devRef .tc main_v25)))))))
        (W (Proc.devRef .tc main_arg5)))
      (broadcastInDim S800000x128 ![0, 1] bcast_S1x128_S800000x128_0_1 (broadcastInDim S1x128 ![1] bcast_S128_S1x128_1 (W (Proc.devRef .tc main_arg6)))) := by
  host_results <;> rfl
theorem C_v0 : after (opsC (F := F)) W (Proc.devRef .tc main_v0) = W (Proc.devRef .tc main_v0) := by
  host_results
theorem C_v1 : after (opsC (F := F)) W (Proc.devRef .tc main_v1) = W (Proc.devRef .tc main_v1) := by
  host_results
theorem C_v5 : after (opsC (F := F)) W (Proc.devRef .tc main_v5) = W (Proc.devRef .tc main_v5) := by
  host_results

/-! ## Fourth stretch: the messages added into the receivers' rows, and the table rebuilt -/

theorem D_v35 : after (opsD (F := F)) W (Proc.devRef .tc main_v35)
    = concatenate S50000x192 1
        [⟨S50000x128, addf (W (Proc.devRef .tc main_v0))
            (Host.scatterAdd scatter_S50000x128_S800000x1_S800000x128_1_0_0_1
              (broadcastInDim S50000x128 ![] bcast_S_S50000x128 (constant S_ .f32 0x00000000#32))
              (broadcastInDim S800000x1 ![0] bcast_S800000_S800000x1_0 (W (Proc.devRef .tc main_v5))) (W (Proc.devRef .tc main_v30)))⟩,
          ⟨S50000x64, W (Proc.devRef .tc main_v1)⟩]
        concatenates_S50000x128_S50000x64_S50000x192_d1 := by
  host_results <;> rfl

/-! ## The four stretches one after the other -/

/-- From any contents, the result buffer ends at the last stage value of what the argument buffers held. -/
theorem result_value : after (ops (F := F)) W (Proc.devRef .tc main_v35)
    = val_main_v35 (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) := by
  rw [ops_eq, StableHlo.after_append, StableHlo.after_append, StableHlo.after_append]
  rw [D_v35, C_v0, C_v1, C_v5, C_v30, B_v0, B_v1, B_v5, B_v25, B_arg5, B_arg6, A_v0, A_v1, A_v5, A_v12, A_v19, A_v20,
    A_arg3, A_arg4, A_arg5, A_arg6]
  rfl

set_option maxHeartbeats 2000000 in
/-- Every weakly fair execution of the reference program terminates, with the result buffer at the last stage value of
    the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = val_main_v35 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v35).trans (result_value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Stretch

end
-- ==== Proof.RefMsgs.lean ====
/-
  The reference program's messages are the row network's.

  The reference lays, for every edge e, the gathered sender row, the gathered receiver row and the edge's length side
  by side (257 numbers), multiplies by the whole 257 × 128 first weight matrix, adds the first bias, applies
  x ↦ x · (1 / (1 + exp(-x))) with both ones written as the bit pattern 0x3F800000, multiplies by the second weight
  matrix and adds the second bias. Read at row e and column j this is, term for term, the side-by-side form of the
  message network; the three bands of the side-by-side array are read off the concatenation: columns 0 … 127 are the
  sender row, columns 128 … 255 the receiver row, column 256 the length. The two gathers are never opened: the
  statement is about whatever arrays they produce.
-/
import proofs.«425673_j35691178230141_1_alg».proof.Proof.RefRead
import proofs.«425673_j35691178230141_1_alg».proof.Proof.RowNet
import proofs.«425673_j35691178230141_1_alg».proof.Proof.LibRowLayers

noncomputable section

namespace Cert.ReferenceIdeal.Bridge

open Idealize.ShloMosaic Idealize.ShloMosaic.TcCoe Idealize.ShloMosaic.ValueIdx Idealize.SL.Sem
open Cert.ReferenceIdeal Cert.ReferenceIdeal.Gen Cert.ReferenceIdeal.Read EdgeMsg

open scoped BigOperators

/-! ## The index maps of the two matrix products and of the bias rows, at a named row and column -/

private theorem lidx27 (e : Fin 800000) (j k : Fin 128) : lidx_main_v27 (ix2 e j) k = ix2 e k :=
  funext fun a => by match a with | ⟨0, _⟩ => rfl | ⟨1, _⟩ => rfl

private theorem ridx27 (e : Fin 800000) (j k : Fin 128) : ridx_main_v27 (ix2 e j) k = ix2 k j :=
  funext fun a => by match a with | ⟨0, _⟩ => rfl | ⟨1, _⟩ => rfl

private theorem idx2829 (e : Fin 800000) (j : Fin 128) : idx_main_v28 (idx_main_v29 (ix2 e j)) = ix1 j :=
  funext fun a => by match a with | ⟨0, _⟩ => rfl

private theorem lidx22 (e : Fin 800000) (k : Fin 128) (q : Fin 257) : lidx_main_v22 (ix2 e k) q = ix2 e q :=
  funext fun a => by match a with | ⟨0, _⟩ => rfl | ⟨1, _⟩ => rfl

private theorem ridx22 (e : Fin 800000) (k : Fin 128) (q : Fin 257) : ridx_main_v22 (ix2 e k) q = ix2 q k :=
  funext fun a => by match a with | ⟨0, _⟩ => rfl | ⟨1, _⟩ => rfl

private theorem idx2324 (e : Fin 800000) (k : Fin 128) : idx_main_v23 (idx_main_v24 (ix2 e k)) = ix1 k :=
  funext fun a => by match a with | ⟨0, _⟩ => rfl

section Stages

variable (h : (⟨S50000x192, .f32⟩ : BufTy).Contents (Elt Ideal)) (ei : (⟨S2x800000, .i32⟩ : BufTy).Contents (Elt Ideal))
  (el : (⟨S800000, .f32⟩ : BufTy).Contents (Elt Ideal)) (W1 : (⟨S257x128, .f32⟩ : BufTy).Contents (Elt Ideal))
  (b1 : (⟨S128, .f32⟩ : BufTy).Contents (Elt Ideal))

/-- The first layer before the activation: row e of the side-by-side array against column k of the first weight
    matrix, 257 products, plus the bias. -/
theorem v25_at (e : Fin 800000) (k : Fin 128) :
    val_main_v25 (F := Ideal) h ei el W1 b1 (ix2 e k)
      = (∑ q : Fin 257, val_main_v21 (F := Ideal) h ei el (ix2 e q) * W1 (ix2 q k)) + b1 (ix1 k) := by
  rw [val_main_v25_apply, val_main_v22_apply, val_main_v24_apply, val_main_v23_apply]
  simp only [lidx22, ridx22, idx2324]
  rfl

/-- The activation: x times one over one plus the exponential of minus x, the two ones being the constant
    0x3F800000 broadcast. -/
theorem v26_at (e : Fin 800000) (k : Fin 128) :
    val_main_v26 (F := Ideal) h ei el W1 b1 (ix2 e k)
      = val_main_v25 (F := Ideal) h ei el W1 b1 (ix2 e k)
          * Ideal.div 1 (1 + Ideal.exp (-(val_main_v25 (F := Ideal) h ei el W1 b1 (ix2 e k)))) := by
  rw [val_main_v26_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]

/-! ## The side-by-side array read band by band -/

/-- The first 128 columns are the gathered sender rows. -/
theorem cat_band0 (e : Fin 800000) (q : Fin 128) :
    val_main_v21 (F := Ideal) h ei el (ix2 e (band0 q)) = val_main_v12 (F := Ideal) h ei (ix2 e q) := by
  unfold val_main_v21
  exact concatenate_apply_piece 1
    [⟨S800000x128, val_main_v12 (F := Ideal) h ei⟩, ⟨S800000x128, val_main_v19 (F := Ideal) h ei⟩,
      ⟨S800000x1, val_main_v20 (F := Ideal) el⟩]
    concatenates_S800000x128_S800000x128_S800000x1_S800000x257_d1 (ix2 e (band0 q)) 0 (by simp) _
    (val_main_v12 (F := Ideal) h ei) rfl rfl 0 (by simp) (ix2 e q)
    (fun ax hax => by match ax with | ⟨0, _⟩ => rfl | ⟨1, _⟩ => exact absurd rfl hax)
    (by show 0 + q.val = q.val; omega)

/-- The next 128 columns are the gathered receiver rows. -/
theorem cat_band1 (e : Fin 800000) (q : Fin 128) :
    val_main_v21 (F := Ideal) h ei el (ix2 e (band1 q)) = val_main_v19 (F := Ideal) h ei (ix2 e q) := by
  unfold val_main_v21
  exact concatenate_apply_piece 1
    [⟨S800000x128, val_main_v12 (F := Ideal) h ei⟩, ⟨S800000x128, val_main_v19 (F := Ideal) h ei⟩,
      ⟨S800000x1, val_main_v20 (F := Ideal) el⟩]
    concatenates_S800000x128_S800000x128_S800000x1_S800000x257_d1 (ix2 e (band1 q)) 1 (by simp) _
    (val_main_v19 (F := Ideal) h ei) rfl rfl 128 (by simp) (ix2 e q)
    (fun ax hax => by match ax with | ⟨0, _⟩ => rfl | ⟨1, _⟩ => exact absurd rfl hax)
    (by show 128 + q.val = 128 + q.val; rfl)

/-- The last column is the edge's length. -/
theorem cat_last (e : Fin 800000) :
    val_main_v21 (F := Ideal) h ei el (ix2 e lastPos) = el (ix1 e) := by
  have hcol : val_main_v20 (F := Ideal) el (ix2 e (0 : Fin 1)) = el (ix1 e) := by
    rw [val_main_v20_apply]
    exact congrArg el (funext fun a => by match a with | ⟨0, _⟩ => rfl)
  rw [← hcol]
  unfold val_main_v21
  exact concatenate_apply_piece 1
    [⟨S800000x128, val_main_v12 (F := Ideal) h ei⟩, ⟨S800000x128, val_main_v19 (F := Ideal) h ei⟩,
      ⟨S800000x1, val_main_v20 (F := Ideal) el⟩]
    concatenates_S800000x128_S800000x128_S800000x1_S800000x257_d1 (ix2 e lastPos) 2 (by simp) _
    (val_main_v20 (F := Ideal) el) rfl rfl (128 + 128) (by simp) (ix2 e (0 : Fin 1))
    (fun ax hax => by match ax with | ⟨0, _⟩ => rfl | ⟨1, _⟩ => exact absurd rfl hax)
    (by show 128 + 128 + 0 = 256; rfl)

end Stages

theorem ref_msgs (h : (⟨S50000x192, .f32⟩ : BufTy).Contents (Elt Ideal)) (ei : (⟨S2x800000, .i32⟩ : BufTy).Contents (Elt Ideal))
    (el : (⟨S800000, .f32⟩ : BufTy).Contents (Elt Ideal)) (W1 : (⟨S257x128, .f32⟩ : BufTy).Contents (Elt Ideal))
    (b1 : (⟨S128, .f32⟩ : BufTy).Contents (Elt Ideal)) (W2 : (⟨S128x128, .f32⟩ : BufTy).Contents (Elt Ideal))
    (b2 : (⟨S128, .f32⟩ : BufTy).Contents (Elt Ideal)) (e : Fin 800000) (j : Fin 128) :
    val_main_v30 (F := Ideal) h ei el W1 b1 W2 b2 (ix2 e j)
      = msg (val_main_v12 (F := Ideal) h ei) (val_main_v19 (F := Ideal) h ei) el W1 b1 W2 b2 (ix2 e j) := by
  rw [← msg_of_cat (val_main_v12 (F := Ideal) h ei) (val_main_v19 (F := Ideal) h ei) el W1 b1 W2 b2
    (val_main_v21 (F := Ideal) h ei el) (cat_band0 h ei el) (cat_band1 h ei el) (cat_last h ei el) e j]
  rw [val_main_v30_apply, val_main_v27_apply, val_main_v29_apply, val_main_v28_apply]
  simp only [lidx27, ridx27, idx2829, v26_at, v25_at]
  rfl

end Cert.ReferenceIdeal.Bridge

end
-- ==== Proof.Join.lean ====
/-
  The two programs compute the same function of the arguments.

  Both end with the same lines: the messages are added into the receivers' rows of a table of zeros, the node table's
  first band is added, and the second band is put back beside it. The bands and the receivers' row numbers are the same
  slices of the same arguments on both sides. The messages are the same array: on the reference's side the network over
  rows laid side by side, which is the network in the kernel's grouping (a sum over 257 positions regrouped); on the
  kernel's side the first 800000 rows of the padded network, where the gathered rows are never replaced by the
  out-of-range filler because every row number is in range.
-/
import proofs.«425673_j35691178230141_1_alg».proof.Proof.KernelRun
import proofs.«425673_j35691178230141_1_alg».proof.Proof.RefRunValues
import proofs.«425673_j35691178230141_1_alg».proof.Proof.RefMsgs

set_option maxRecDepth 16384

noncomputable section

namespace Cert.Proof.Join

open Idealize.ShloMosaic Idealize.ShloMosaic.TcCoe Idealize.ShloMosaic.ValueIdx Idealize.SL.Sem
open Cert.KernelIdeal.Bridge

/-- The reference's message stage, of the kernel program's argument arrays, is the kernel side's message array: the
    gathered rows are the same gathers of the same start indices. -/
theorem ref_msgs_eq (m : (ℓ : Loc Cert.KernelIdeal.nD Cert.KernelIdeal.τ Cert.KernelIdeal.sig) → Buf (Elt Ideal) ℓ)
    (c : Dev Cert.KernelIdeal.nD) :
    Cert.ReferenceIdeal.Read.val_main_v30 (F := Ideal) (argH m c) (argEI m c) (argEL m c) (argW1 m c) (argB1 m c) (argW2 m c)
        (argB2 m c) = msgs m c := by
  funext i
  obtain ⟨e, j, rfl⟩ : ∃ (e : Fin 800000) (j : Fin 128), i = ix2 e j := ⟨i 0, i 1, eq_ix2 i⟩
  exact Cert.ReferenceIdeal.Bridge.ref_msgs (argH m c) (argEI m c) (argEL m c) (argW1 m c) (argB1 m c) (argW2 m c) (argB2 m c) e j

/-- The reference's last stage value, of the kernel program's argument arrays, is the kernel's result. -/
theorem ref_value (m : (ℓ : Loc Cert.KernelIdeal.nD Cert.KernelIdeal.τ Cert.KernelIdeal.sig) → Buf (Elt Ideal) ℓ)
    (c : Dev Cert.KernelIdeal.nD) :
    Cert.ReferenceIdeal.Read.val_main_v35 (F := Ideal) (argH m c) (argEI m c) (argEL m c) (argW1 m c) (argB1 m c) (argW2 m c)
        (argB2 m c) = tailFn (scal m c) (rest m c) (recvRaw m c) (msgs m c) := by
  unfold Cert.ReferenceIdeal.Read.val_main_v35 Cert.ReferenceIdeal.Read.val_main_v34 Cert.ReferenceIdeal.Read.val_main_v33
  rw [ref_msgs_eq m c]
  rfl

end Cert.Proof.Join

end
-- ==== Proof.PreDecode.lean ====
/-
  What the precondition says of the edge-index array.

  The precondition is a conjunction, computed as one bit: every float input finite, and every entry x of the
  edge-index array with -50000 ≤ x and x < 50000. When the bit is one, the last conjunct is one; that conjunct is the
  "and" of the two comparisons over all entries, so each entry passes both comparisons.
-/
import proofs.«425673_j35691178230141_1_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.Bridge

open Idealize.ShloMosaic Cert.Pre_finite_inputs Cert.Pre_finite_inputs.Facts

variable [Facts]

theorem range_of_pre (h : FVec Ideal S50000x192 .f32) (ei : IVec S2x800000 32) (el : FVec Ideal S800000 .f32)
    (W1 : FVec Ideal S257x128 .f32) (b1 : FVec Ideal S128 .f32) (W2 : FVec Ideal S128x128 .f32) (b2 : FVec Ideal S128 .f32)
    (hp : fn (F := Ideal) h ei el W1 b1 W2 b2 = fun _ => 1#1) (i : S2x800000.Idx) :
    IntOp.cmpi .sge (ei i) 4294917296#32 = 1#1 ∧ IntOp.cmpi .slt (ei i) 50000#32 = 1#1 := by
  have h0 := congrFun hp ValueIdx.ix0
  unfold fn fn_part1 fn_part2 at h0
  dsimp only at h0
  -- the last conjunct of the one-bit conjunction
  obtain ⟨-, h1⟩ := IntOp.andi_eq_one.1 h0
  -- an "and" over all entries that came out one met a one at every entry
  haveI : Subsingleton S_.Idx := ⟨fun a b => funext fun d => d.elim0⟩
  have h2 := Host.reduce_andi_all _ _ _ _ _ h1 i
  obtain ⟨ha, hb⟩ := IntOp.andi_eq_one.1 h2
  -- the two bounds, each a scalar repeated over the array
  have elo : broadcastInDim S2x800000 ![] bcast_S_S2x800000 (constantI S_ 32 4294917296#32) i = 4294917296#32 :=
    broadcastInDim_apply ![] bcast_S_S2x800000 _ i ValueIdx.ix0 (fun a => a.elim0)
  have ehi : broadcastInDim S2x800000 ![] bcast_S_S2x800000 (constantI S_ 32 50000#32) i = 50000#32 :=
    broadcastInDim_apply ![] bcast_S_S2x800000 _ i ValueIdx.ix0 (fun a => a.elim0)
  have ha' : IntOp.cmpi .sge (ei i) (broadcastInDim S2x800000 ![] bcast_S_S2x800000 (constantI S_ 32 4294917296#32) i) = 1#1 := ha
  have hb' : IntOp.cmpi .slt (ei i) (broadcastInDim S2x800000 ![] bcast_S_S2x800000 (constantI S_ 32 50000#32) i) = 1#1 := hb
  rw [elo] at ha'
  rw [ehi] at hb'
  exact ⟨ha', hb'⟩

end Cert.Pre_finite_inputs.Bridge

end
-- ==== Proof.lean ====
/- The kernel pads 800000 edges to 98 blocks of 8192, and per block computes a two-layer network on the matrix unit: the
   first layer as the sender rows times one band of the first weight matrix, plus the receiver rows times the next band,
   plus each edge's length times the matrix's last row, plus a bias; then x · (1 / (1 + exp(-x))); then the second layer.
   The reference lays each edge's sender row, receiver row and length side by side and multiplies by the whole first weight
   matrix. Over the extended reals the two first layers are one number (a sum over 257 positions regrouped, by commutativity
   and associativity alone), the activations are one function, and everything before and after — the gathers of the node
   table's rows, the scatter-add of the messages into the receivers' rows — is the same on both sides, given that every row
   number lies in -50000 … 49999 (outside that range the kernel's gather fills with a not-a-number where the reference's
   clamps; the precondition excludes it).
   Proof/RowNet.lean states the network row by row and the regrouping; Proof/IndexRange.lean the row numbers;
   Proof/Payload.lean the body's arithmetic at an index; Proof/HostDefs.lean, HostPrefix.lean, HostGather.lean what the
   program's first lines hand to the region; Proof/KernelArray.lean the padded output array; Proof/Tail.lean the last lines;
   Proof/KernelRun.lean the kernel's run as values; Proof/RefRunValues.lean the reference's run, stretch by stretch;
   Proof/RefMsgs.lean the reference's messages; Proof/PreDecode.lean the precondition read; Proof/Join.lean the two sides
   joined. -/
import proofs.«425673_j35691178230141_1_alg».proof.Defs
import proofs.«425673_j35691178230141_1_alg».proof.Proof.Gen.Kernel
import proofs.«425673_j35691178230141_1_alg».proof.Proof.Gen.Kernel.Frame
import proofs.«425673_j35691178230141_1_alg».proof.Proof.Gen.KernelIdeal
import proofs.«425673_j35691178230141_1_alg».proof.Proof.Gen.KernelIdeal.Frame
import proofs.«425673_j35691178230141_1_alg».proof.Proof.Gen.ReferenceIdeal
import proofs.«425673_j35691178230141_1_alg».proof.Proof.Gen.Pre_finite_inputs
import proofs.«425673_j35691178230141_1_alg».proof.Proof.Join
import proofs.«425673_j35691178230141_1_alg».proof.Proof.PreDecode
import Idealize.ShloMosaic.Adequacy
import Idealize.ShloMosaic.Init

noncomputable section

namespace Cert.Proof

open Idealize.ShloMosaic Idealize.SL.Sem

/-- The kernel program, word by word, terminates without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run, with the result dropped. -/
theorem frame_r : Cert.frame_ReferenceIdeal := fun m ρ _ =>
  (θ_run Cert.ReferenceIdeal.defs _ _).mono (fun _ h c => (h c).2) (Cert.ReferenceIdeal.Stretch.run (F := Ideal) m ρ)

/-- From memories that agree on the arguments, under the precondition, both programs end with the same result: the
    kernel's at the tail function of the bands, the receivers and the messages, and the reference's last stage value is
    that same array. -/
theorem algebraic : Cert.algebraic_KernelIdeal_ReferenceIdeal := by
  intro m ρ m' ρ' hpre hagree
  have hr : ∀ c, Cert.KernelIdeal.Bridge.InRange m c := fun c i =>
    Cert.Pre_finite_inputs.Bridge.range_of_pre _ _ _ _ _ _ _ (hpre c) i
  refine ⟨fun c => Cert.KernelIdeal.Bridge.tailFn (Cert.KernelIdeal.Bridge.scal m c) (Cert.KernelIdeal.Bridge.rest m c)
      (Cert.KernelIdeal.Bridge.recvRaw m c) (Cert.KernelIdeal.Bridge.msgs m c),
    Cert.KernelIdeal.Bridge.run_values m ρ hr, ?_⟩
  refine (θ_run Cert.ReferenceIdeal.defs _ _).mono (fun _ h c => ⟨(h c).1.trans ?_, (h c).2⟩)
    (Cert.ReferenceIdeal.Stretch.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.Proof.Join.ref_value m c

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
